-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S200x10000 : Shape := ⟨2, ![200, 10000]⟩
abbrev S1x128 : Shape := ⟨2, ![1, 128]⟩
abbrev S400x10000 : Shape := ⟨2, ![400, 10000]⟩
abbrev S400x128 : Shape := ⟨2, ![400, 128]⟩

abbrev nBuf : Space → Nat
  | .hbm => 31
  | .vmem => 34
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S10000x10000, .bf16⟩
  | .hbm, ⟨14, _⟩ => ⟨S10000x10000, .bf16⟩
  | .hbm, ⟨15, _⟩ => ⟨S10000x128, .bf16⟩
  | .hbm, ⟨16, _⟩ => ⟨S128x128, .bf16⟩
  | .hbm, ⟨17, _⟩ => ⟨S1x128, .f32⟩
  | .hbm, ⟨18, _⟩ => ⟨S10000x128, .f32⟩
  | .hbm, ⟨19, _⟩ => ⟨S10000x128, .bf16⟩
  | .hbm, ⟨20, _⟩ => ⟨S128x128, .bf16⟩
  | .hbm, ⟨21, _⟩ => ⟨S128x128, .bf16⟩
  | .hbm, ⟨22, _⟩ => ⟨S1x128, .f32⟩
  | .hbm, ⟨23, _⟩ => ⟨S1x128, .f32⟩
  | .hbm, ⟨24, _⟩ => ⟨S10000x128, .f32⟩
  | .hbm, ⟨25, _⟩ => ⟨S10000x128, .bf16⟩
  | .hbm, ⟨26, _⟩ => ⟨S128x128, .bf16⟩
  | .hbm, ⟨27, _⟩ => ⟨S128x128, .bf16⟩
  | .hbm, ⟨28, _⟩ => ⟨S1x128, .f32⟩
  | .hbm, ⟨29, _⟩ => ⟨S1x128, .f32⟩
  | .hbm, ⟨30, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .bf16⟩
  | .local _ .vmem, ⟨5, _⟩ => ⟨S200x10000, .bf16⟩
  | .local _ .vmem, ⟨6, _⟩ => ⟨S200x10000, .bf16⟩
  | .local _ .vmem, ⟨7, _⟩ => ⟨S200x10000, .bf16⟩
  | .local _ .vmem, ⟨8, _⟩ => ⟨S10000x128, .bf16⟩
  | .local _ .vmem, ⟨9, _⟩ => ⟨S128x128, .bf16⟩
  | .local _ .vmem, ⟨10, _⟩ => ⟨S1x128, .f32⟩
  | .local _ .vmem, ⟨11, _⟩ => ⟨S10000x128, .f32⟩
  | .local _ .vmem, ⟨12, _⟩ => ⟨S400x10000, .bf16⟩
  | .local _ .vmem, ⟨13, _⟩ => ⟨S400x10000, .bf16⟩
  | .local _ .vmem, ⟨14, _⟩ => ⟨S400x10000, .bf16⟩
  | .local _ .vmem, ⟨15, _⟩ => ⟨S400x10000, .bf16⟩
  | .local _ .vmem, ⟨16, _⟩ => ⟨S10000x128, .bf16⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S1x128, .f32⟩
  | .local _ .vmem, ⟨21, _⟩ => ⟨S400x128, .f32⟩
  | .local _ .vmem, ⟨22, _⟩ => ⟨S400x128, .f32⟩
  | .local _ .vmem, ⟨23, _⟩ => ⟨S400x10000, .bf16⟩
  | .local _ .vmem, ⟨24, _⟩ => ⟨S400x10000, .bf16⟩
  | .local _ .vmem, ⟨25, _⟩ => ⟨S400x10000, .bf16⟩
  | .local _ .vmem, ⟨26, _⟩ => ⟨S400x10000, .bf16⟩
  | .local _ .vmem, ⟨27, _⟩ => ⟨S10000x128, .bf16⟩
  | .local _ .vmem, ⟨28, _⟩ => ⟨S128x128, .bf16⟩
  | .local _ .vmem, ⟨29, _⟩ => ⟨S128x128, .bf16⟩
  | .local _ .vmem, ⟨30, _⟩ => ⟨S1x128, .f32⟩
  | .local _ .vmem, ⟨31, _⟩ => ⟨S1x128, .f32⟩
  | .local _ .vmem, ⟨32, _⟩ => ⟨S400x128, .f32⟩
  | .local _ .vmem, ⟨33, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S10000x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x10000 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S400x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x10000 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .bf16 = 32 ∨ (Rect.block (s := S10000x10000) S200x10000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .bf16 = 32 ∨ (Rect.block (s := S10000x10000) S200x10000.size (cc0_transform_3 i) (hinb0_3 i)).WholeWords (EltTy.packing .bf16)
  hstage1_0 : ∀ j, (stage1_0 j).IsWhole
  hstage1_1 : ∀ j, (stage1_1 j).IsWhole
  hstage1_2 : ∀ j, (stage1_2 j).IsWhole
  hstage1_3 : ∀ j, (stage1_3 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x10000.size a ≤ S10000x10000.size a
  hwx2_1 : ∀ i : grid2.Coords, EltTy.bits .bf16 = 32 ∨ (Rect.block (s := S10000x10000) S400x10000.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .bf16 = 32 ∨ (Rect.block (s := S10000x128) S10000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x128.size a ≤ S10000x128.size a
  hwx2_7 : ∀ i : grid2.Coords, EltTy.bits .f32 = 32 ∨ (Rect.block (s := S10000x128) S400x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x10000.size a ≤ S10000x10000.size a
  hwx3_1 : ∀ i : grid3.Coords, EltTy.bits .bf16 = 32 ∨ (Rect.block (s := S10000x10000) S400x10000.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S10000x128.size a
  hwx3_2 : ∀ i : grid3.Coords, EltTy.bits .bf16 = 32 ∨ (Rect.block (s := S10000x128) S10000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x128.size a ≤ S10000x128.size a
  hwx3_7 : ∀ i : grid3.Coords, EltTy.bits .f32 = 32 ∨ (Rect.block (s := S10000x128) S400x128.size (cc3_transform_7 i) (hinb3_7 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S200x10000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S200x10000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.whole (Memref.whole main_v1) false false (stage1_0 0) (sem1_0 0) (Memref.isWhole_whole _) (hstage1_0 0)

abbrev win1_1 : Pipeline.Window sig grid1 :=
  Pipeline.Window.whole (Memref.whole main_v2) false false (stage1_1 0) (sem1_1 0) (Memref.isWhole_whole _) (hstage1_1 0)

abbrev win1_2 : Pipeline.Window sig grid1 :=
  Pipeline.Window.whole (Memref.whole main_v3) false false (stage1_2 0) (sem1_2 0) (Memref.isWhole_whole _) (hstage1_2 0)

abbrev win1_3 : Pipeline.Window sig grid1 :=
  Pipeline.Window.whole (Memref.whole main_v4) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S400x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S400x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v0_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0_1) S400x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S10000x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v16) S400x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S128x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S128x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S128x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S128x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The network both programs compute, as one function of the argument arrays over the extended reals.

  Nodes carry 128 features; there are 10000 nodes and two dense 10000 x 10000 adjacency matrices.
    embed  : h₀ = tanh (x · W_inᵀ + b_in)
    layer  : h' = tanh ((A_pos · h) · Wpᵀ + bp  +  (A_neg · h) · Wnᵀ + bn)
    net    : two layers over the embedding.
  Every matrix product is the plain sum over its contraction index, in that index's own order; nothing is
  regrouped, so the two programs agree sum by sum and no finiteness of the inputs is needed.
  The bias of a layer reaches the kernel as a 1 x 128 row; `row1` is that row of a length-128 vector.
-/
import Idealize.ShloMosaic.PureOps.Ideal
import Idealize.ShloMosaic.Lib.ValueIdx

noncomputable section

namespace Cert.Spec

open Idealize.ShloMosaic Idealize.ShloMosaic.ValueIdx

/-- A real matrix with `r` rows and `c` columns, entries extended reals. -/
abbrev Mat (r c : Nat) : Type := (⟨2, ![r, c]⟩ : Shape).Idx → EReal
/-- A vector of length `n`. -/
abbrev Vec1 (n : Nat) : Type := (⟨1, ![n]⟩ : Shape).Idx → EReal

/-- Entry (p, q) of `x · Wᵀ`: the 128 columns of row `p` of `x` against the 128 columns of row `q` of `W`. -/
def mulT (x : Mat 10000 128) (W : Mat 128 128) (p : Fin 10000) (q : Fin 128) : EReal :=
  ∑ k : Fin 128, x (ix2 p k) * W (ix2 q k)

/-- Entry (p, q) of `A · h`: row `p` of the adjacency against column `q` of the features, over all 10000 nodes. -/
def agg (A : Mat 10000 10000) (h : Mat 10000 128) (p : Fin 10000) (q : Fin 128) : EReal :=
  ∑ k : Fin 10000, A (ix2 p k) * h (ix2 k q)

/-- `A · h` as a matrix. -/
def aggM (A : Mat 10000 10000) (h : Mat 10000 128) : Mat 10000 128 := fun j => agg A h (j 0) (j 1)

/-- A length-128 vector as the single row of a 1 x 128 matrix. -/
def row1 (b : Vec1 128) : Mat 1 128 := fun j => b (ix1 (j 1))

/-- The embedding with its bias given as a 1 x 128 row: `tanh (x · Wᵀ + b)`. -/
def embedK (x : Mat 10000 128) (W : Mat 128 128) (b : Mat 1 128) : Mat 10000 128 :=
  fun i => Ideal.tanh (mulT x W (i 0) (i 1) + b (ix2 0 (i 1)))

/-- One signed propagation layer with its biases given as 1 x 128 rows:
    `tanh (((A_pos · h) · Wpᵀ + bp) + ((A_neg · h) · Wnᵀ + bn))`. -/
def layerK (Ap An : Mat 10000 10000) (h : Mat 10000 128) (Wp Wn : Mat 128 128) (bp bn : Mat 1 128) : Mat 10000 128 :=
  fun i => Ideal.tanh ((mulT (aggM Ap h) Wp (i 0) (i 1) + bp (ix2 0 (i 1)))
                     + (mulT (aggM An h) Wn (i 0) (i 1) + bn (ix2 0 (i 1))))

/-- The whole network: the embedding, then two layers sharing the adjacencies. -/
def net (x : Mat 10000 128) (Ap An : Mat 10000 10000) (Win : Mat 128 128) (bin : Vec1 128)
    (Wp0 : Mat 128 128) (bp0 : Vec1 128) (Wn0 : Mat 128 128) (bn0 : Vec1 128)
    (Wp1 : Mat 128 128) (bp1 : Vec1 128) (Wn1 : Mat 128 128) (bn1 : Vec1 128) : Mat 10000 128 :=
  layerK Ap An (layerK Ap An (embedK x Win (row1 bin)) Wp0 Wn0 (row1 bp0) (row1 bn0)) Wp1 Wn1 (row1 bp1) (row1 bn1)

end Cert.Spec

end
-- ==== Proof.Chain.lean ====
/-
  The result buffer at the end of the run, as the network of the launch arguments.

  The run's buffer contents at the seven segment boundaries form a fold from the launch memory: a kernel region
  replaces its own arrays by what its write-backs leave and keeps every other buffer; a stretch of host operations
  replaces what it writes (here only format changes, which are the identity on extended reals, and the reshape of a
  length-128 bias to a 1 x 128 row) and keeps the rest. Walking that fold backwards from the last region's output:
    result      = layer (A_pos, A_neg, h₁, Wp1, Wn1, bp1, bn1)     the last region's output array
    h₁          = layer (A_pos, A_neg, h₀, Wp0, Wn0, bp0, bn0)     the third region's output, recast
    h₀          = tanh (x · W_inᵀ + b_in)                           the second region's output, recast
    A_pos, A_neg                                                    the first region's outputs: the arguments, recast
  Each region's output array as a function of its entry contents is a hypothesis here (`RegionValues`); they are
  proved region by region elsewhere.
-/
import proofs.«151457_g26603027432195_retrytranche2_1891_15_alg».proof.Proof.Gen.KernelIdeal.Frame
import proofs.«151457_g26603027432195_retrytranche2_1891_15_alg».proof.Proof.Spec
import Idealize.ShloMosaic.Lib.StableHlo.Run
import Idealize.ShloMosaic.Lib.ValueLayout
import Idealize.ShloMosaic.Lib.ValueIdx

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen
open Cert.Spec (Mat Vec1 row1 embedK layerK net)

/-- The TensorCore's buffer contents when a region is entered. -/
abbrev Entry : Type := (c : Dev nD) → (b : Ref sig .tc) → Buf (Elt Ideal) ((c : Thread nD τ).loc b)

/-- What each region leaves in its output arrays, as a function of the contents it is entered with: the two casts
    return their operands, the embedding region the embedding, each layer region a layer. -/
structure RegionValues : Prop where
  castPos : ∀ (V : Entry) (c : Dev nD), (dat0 (F := Ideal) V c).arrAt 2 cfg0.N = (V c main_arg1 : Mat 10000 10000)
  castNeg : ∀ (V : Entry) (c : Dev nD), (dat0 (F := Ideal) V c).arrAt 3 cfg0.N = (V c main_arg2 : Mat 10000 10000)
  embed : ∀ (V : Entry) (c : Dev nD), (dat1 (F := Ideal) V c).arrAt 3 cfg1.N = embedK (V c main_v1) (V c main_v2) (V c main_v3)
  layer0 : ∀ (V : Entry) (c : Dev nD), (dat2 (F := Ideal) V c).arrAt 7 cfg2.N
      = layerK (V c main_v0_0) (V c main_v0_1) (V c main_v5) (V c main_v6) (V c main_v7) (V c main_v8) (V c main_v9)
  layer1 : ∀ (V : Entry) (c : Dev nD), (dat3 (F := Ideal) V c).arrAt 7 cfg3.N
      = layerK (V c main_v0_0) (V c main_v0_1) (V c main_v11) (V c main_v12) (V c main_v13) (V c main_v14) (V c main_v15)

/-- A length-128 vector reshaped to 1 x 128 is its single row. -/
theorem reshape_row (b : Vec1 128) (h : (⟨1, ![128]⟩ : Shape).ShapeCasts ⟨2, ![1, 128]⟩) :
    shapeCast ⟨2, ![1, 128]⟩ b h = row1 b := by
  funext j
  obtain ⟨u, q, rfl⟩ : ∃ (u : Fin 1) (q : Fin 128), j = ix2 u q := ⟨j 0, j 1, eq_ix2 j⟩
  exact shapeCast_a_1a_apply b h u q

/-- No operation of a stretch writes the buffer: every operation there is a one-operand map or a reshape, and its
    one result buffer is another one. -/
macro "host_disjoint" ops:ident : tactic =>
  `(tactic| (refine List.forall_iff_forall_mem.mp ?_
             simp only [$ops:ident, List.Forall, unary_writes, reshape_writes, Finset.mem_singleton]
             repeat' apply And.intro
             all_goals exact devRef_ne_of_ne (by decide)))

variable (m : (ℓ : Loc nD τ sig) → Buf (Elt Ideal) ℓ) (ρ : Dev nD → PrngReg) (c : Dev nD)

/-! ## Buffers no region stages: they keep their launch contents -/

theorem W1_other (b : Ref sig .tc) (h0 : ∀ w, Pipeline.arrRef spec0 w ≠ b) :
    W1 m ρ c (Proc.devRef .tc b) = m ((c : Thread nD τ).loc b) := W1_of_ne m ρ c b h0

theorem W3_other (b : Ref sig .tc) (h0 : ∀ w, Pipeline.arrRef spec0 w ≠ b) (h1 : ∀ w, Pipeline.arrRef spec1 w ≠ b)
    (k1 : ∀ op ∈ (hostOps1 : List (HloOp τ sig (Elt Ideal))), (Proc.devRef .tc b : DevRef τ sig) ∉ op.writes) :
    W3 m ρ c (Proc.devRef .tc b) = m ((c : Thread nD τ).loc b) :=
  (W3_of_ne m ρ c b h1).trans ((after_of_forall_not_mem (b := Proc.devRef .tc b) hostOps1 (W1 m ρ c) k1).trans (W1_other m ρ c b h0))

theorem W5_other (b : Ref sig .tc) (h0 : ∀ w, Pipeline.arrRef spec0 w ≠ b) (h1 : ∀ w, Pipeline.arrRef spec1 w ≠ b)
    (h2 : ∀ w, Pipeline.arrRef spec2 w ≠ b)
    (k1 : ∀ op ∈ (hostOps1 : List (HloOp τ sig (Elt Ideal))), (Proc.devRef .tc b : DevRef τ sig) ∉ op.writes)
    (k2 : ∀ op ∈ (hostOps2 : List (HloOp τ sig (Elt Ideal))), (Proc.devRef .tc b : DevRef τ sig) ∉ op.writes) :
    W5 m ρ c (Proc.devRef .tc b) = m ((c : Thread nD τ).loc b) :=
  (W5_of_ne m ρ c b h2).trans ((after_of_forall_not_mem (b := Proc.devRef .tc b) hostOps2 (W3 m ρ c) k2).trans (W3_other m ρ c b h0 h1 k1))

/-! ## The first region's outputs: the two adjacency matrices, recast -/

variable (hv : RegionValues)
include hv

theorem W1_pos : (W1 m ρ c (Proc.devRef .tc main_v0_0) : Mat 10000 10000) = m ((c : Thread nD τ).loc main_arg1) :=
  (W1_arr m ρ c 2).trans (hv.castPos (V0 m ρ) c)
theorem W1_neg : (W1 m ρ c (Proc.devRef .tc main_v0_1) : Mat 10000 10000) = m ((c : Thread nD τ).loc main_arg2) :=
  (W1_arr m ρ c 3).trans (hv.castNeg (V0 m ρ) c)

/-- They reach the third region unchanged: the stretches between do not write them and the second region does not stage them. -/
theorem V4_pos : (V4 m ρ c main_v0_0 : Mat 10000 10000) = m ((c : Thread nD τ).loc main_arg1) :=
  (after_of_forall_not_mem (b := Proc.devRef .tc main_v0_0) hostOps2 (W3 m ρ c) (by host_disjoint hostOps2)).trans
    ((W3_of_ne m ρ c main_v0_0 (by decide)).trans
      ((after_of_forall_not_mem (b := Proc.devRef .tc main_v0_0) hostOps1 (W1 m ρ c) (by host_disjoint hostOps1)).trans (W1_pos m ρ c hv)))
theorem V4_neg : (V4 m ρ c main_v0_1 : Mat 10000 10000) = m ((c : Thread nD τ).loc main_arg2) :=
  (after_of_forall_not_mem (b := Proc.devRef .tc main_v0_1) hostOps2 (W3 m ρ c) (by host_disjoint hostOps2)).trans
    ((W3_of_ne m ρ c main_v0_1 (by decide)).trans
      ((after_of_forall_not_mem (b := Proc.devRef .tc main_v0_1) hostOps1 (W1 m ρ c) (by host_disjoint hostOps1)).trans (W1_neg m ρ c hv)))

/-- And the fourth: the third region stages them as inputs, which it leaves as it found them. -/
theorem V6_pos : (V6 m ρ c main_v0_0 : Mat 10000 10000) = m ((c : Thread nD τ).loc main_arg1) :=
  (after_of_forall_not_mem (b := Proc.devRef .tc main_v0_0) hostOps3 (W5 m ρ c) (by host_disjoint hostOps3)).trans
    ((W5_arr m ρ c 0).trans (((dat2 (V4 m ρ) c).arrAt_in 0 rfl _).trans ((A_eq2 (V4 m ρ) c 0).trans (V4_pos m ρ c hv))))
theorem V6_neg : (V6 m ρ c main_v0_1 : Mat 10000 10000) = m ((c : Thread nD τ).loc main_arg2) :=
  (after_of_forall_not_mem (b := Proc.devRef .tc main_v0_1) hostOps3 (W5 m ρ c) (by host_disjoint hostOps3)).trans
    ((W5_arr m ρ c 1).trans (((dat2 (V4 m ρ) c).arrAt_in 1 rfl _).trans ((A_eq2 (V4 m ρ) c 1).trans (V4_neg m ρ c hv))))

/-! ## The second region's entry: x and W_in recast, b_in as a row -/

theorem V2_x : (V2 m ρ c main_v1 : Mat 10000 128) = m ((c : Thread nD τ).loc main_arg0) := by
  show after hostOps1 (W1 m ρ c) (Proc.devRef .tc main_v1) = _
  after_results
  exact W1_other m ρ c main_arg0 (by decide)
theorem V2_w : (V2 m ρ c main_v2 : Mat 128 128) = m ((c : Thread nD τ).loc main_arg3) := by
  show after hostOps1 (W1 m ρ c) (Proc.devRef .tc main_v2) = _
  after_results
  exact W1_other m ρ c main_arg3 (by decide)
theorem V2_b : (V2 m ρ c main_v3 : Mat 1 128) = row1 (m ((c : Thread nD τ).loc main_arg4)) := by
  show after hostOps1 (W1 m ρ c) (Proc.devRef .tc main_v3) = _
  after_results
  rw [W1_other m ρ c main_arg4 (by decide)]
  exact reshape_row _ _

/-- The embedding, as the second region leaves it. -/
theorem W3_h0 : (W3 m ρ c (Proc.devRef .tc main_v4) : Mat 10000 128)
    = embedK (m ((c.tc : Thread nD τ).loc main_arg0)) (m ((c.tc : Thread nD τ).loc main_arg3)) (row1 (m ((c.tc : Thread nD τ).loc main_arg4))) := by
  refine ((W3_arr m ρ c 3).trans (hv.embed (V2 m ρ) c)).trans ?_
  rw [V2_x m ρ c hv, V2_w m ρ c hv, V2_b m ρ c hv]

/-! ## The third region's entry -/

theorem V4_h : (V4 m ρ c main_v5 : Mat 10000 128) = embedK (m ((c.tc : Thread nD τ).loc main_arg0)) (m ((c.tc : Thread nD τ).loc main_arg3)) (row1 (m ((c.tc : Thread nD τ).loc main_arg4))) := by
  show after hostOps2 (W3 m ρ c) (Proc.devRef .tc main_v5) = _
  after_results
  exact W3_h0 m ρ c hv
theorem V4_wp : (V4 m ρ c main_v6 : Mat 128 128) = m ((c : Thread nD τ).loc main_arg5) := by
  show after hostOps2 (W3 m ρ c) (Proc.devRef .tc main_v6) = _
  after_results
  exact W3_other m ρ c main_arg5 (by decide) (by decide) (by host_disjoint hostOps1)
theorem V4_wn : (V4 m ρ c main_v7 : Mat 128 128) = m ((c : Thread nD τ).loc main_arg7) := by
  show after hostOps2 (W3 m ρ c) (Proc.devRef .tc main_v7) = _
  after_results
  exact W3_other m ρ c main_arg7 (by decide) (by decide) (by host_disjoint hostOps1)
theorem V4_bp : (V4 m ρ c main_v8 : Mat 1 128) = row1 (m ((c : Thread nD τ).loc main_arg6)) := by
  show after hostOps2 (W3 m ρ c) (Proc.devRef .tc main_v8) = _
  after_results
  rw [W3_other m ρ c main_arg6 (by decide) (by decide) (by host_disjoint hostOps1)]
  exact reshape_row _ _
theorem V4_bn : (V4 m ρ c main_v9 : Mat 1 128) = row1 (m ((c : Thread nD τ).loc main_arg8)) := by
  show after hostOps2 (W3 m ρ c) (Proc.devRef .tc main_v9) = _
  after_results
  rw [W3_other m ρ c main_arg8 (by decide) (by decide) (by host_disjoint hostOps1)]
  exact reshape_row _ _

/-- The first layer's output, as the third region leaves it. -/
theorem W5_h1 : (W5 m ρ c (Proc.devRef .tc main_v10) : Mat 10000 128)
    = layerK (m ((c.tc : Thread nD τ).loc main_arg1)) (m ((c.tc : Thread nD τ).loc main_arg2)) (embedK (m ((c.tc : Thread nD τ).loc main_arg0)) (m ((c.tc : Thread nD τ).loc main_arg3)) (row1 (m ((c.tc : Thread nD τ).loc main_arg4)))) (m ((c.tc : Thread nD τ).loc main_arg5)) (m ((c.tc : Thread nD τ).loc main_arg7)) (row1 (m ((c.tc : Thread nD τ).loc main_arg6))) (row1 (m ((c.tc : Thread nD τ).loc main_arg8))) := by
  refine ((W5_arr m ρ c 7).trans (hv.layer0 (V4 m ρ) c)).trans ?_
  rw [V4_pos m ρ c hv, V4_neg m ρ c hv, V4_h m ρ c hv, V4_wp m ρ c hv, V4_wn m ρ c hv, V4_bp m ρ c hv, V4_bn m ρ c hv]

/-! ## The fourth region's entry, and the result -/

theorem V6_h : (V6 m ρ c main_v11 : Mat 10000 128)
    = layerK (m ((c.tc : Thread nD τ).loc main_arg1)) (m ((c.tc : Thread nD τ).loc main_arg2)) (embedK (m ((c.tc : Thread nD τ).loc main_arg0)) (m ((c.tc : Thread nD τ).loc main_arg3)) (row1 (m ((c.tc : Thread nD τ).loc main_arg4)))) (m ((c.tc : Thread nD τ).loc main_arg5)) (m ((c.tc : Thread nD τ).loc main_arg7)) (row1 (m ((c.tc : Thread nD τ).loc main_arg6))) (row1 (m ((c.tc : Thread nD τ).loc main_arg8))) := by
  show after hostOps3 (W5 m ρ c) (Proc.devRef .tc main_v11) = _
  after_results
  exact W5_h1 m ρ c hv
theorem V6_wp : (V6 m ρ c main_v12 : Mat 128 128) = m ((c : Thread nD τ).loc main_arg9) := by
  show after hostOps3 (W5 m ρ c) (Proc.devRef .tc main_v12) = _
  after_results
  exact W5_other m ρ c main_arg9 (by decide) (by decide) (by decide) (by host_disjoint hostOps1) (by host_disjoint hostOps2)
theorem V6_wn : (V6 m ρ c main_v13 : Mat 128 128) = m ((c : Thread nD τ).loc main_arg11) := by
  show after hostOps3 (W5 m ρ c) (Proc.devRef .tc main_v13) = _
  after_results
  exact W5_other m ρ c main_arg11 (by decide) (by decide) (by decide) (by host_disjoint hostOps1) (by host_disjoint hostOps2)
theorem V6_bp : (V6 m ρ c main_v14 : Mat 1 128) = row1 (m ((c : Thread nD τ).loc main_arg10)) := by
  show after hostOps3 (W5 m ρ c) (Proc.devRef .tc main_v14) = _
  after_results
  rw [W5_other m ρ c main_arg10 (by decide) (by decide) (by decide) (by host_disjoint hostOps1) (by host_disjoint hostOps2)]
  exact reshape_row _ _
theorem V6_bn : (V6 m ρ c main_v15 : Mat 1 128) = row1 (m ((c : Thread nD τ).loc main_arg12)) := by
  show after hostOps3 (W5 m ρ c) (Proc.devRef .tc main_v15) = _
  after_results
  rw [W5_other m ρ c main_arg12 (by decide) (by decide) (by decide) (by host_disjoint hostOps1) (by host_disjoint hostOps2)]
  exact reshape_row _ _

/-- THE RESULT: at the end of the run the result buffer holds the network of the launch arguments. -/
theorem result_eq : (W7 m ρ c (Proc.devRef .tc main_v16) : Mat 10000 128)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine ((W7_arr m ρ c 7).trans (hv.layer1 (V6 m ρ) c)).trans ?_
  rw [V6_pos m ρ c hv, V6_neg m ρ c hv, V6_h m ρ c hv, V6_wp m ρ c hv, V6_wn m ρ c hv, V6_bp m ρ c hv, V6_bn m ρ c hv]
  rfl

end Cert.KernelIdeal.Chain

end
-- ==== Proof.Reg0.lean ====
/-
  The cast region's two output arrays, whole.

  The region walks 50 grid points; point t stages rows 200·t … 200·t+199 (all 10000 columns) of each of the two
  adjacency matrices, and writes back, to the same rows of the matching output array, what it staged after a change
  of float format. Over the extended reals a change of float format is the identity, so each point writes back
  exactly the rows it read. The 50 row bands tile the 10000 rows, so each output array ends equal, entry by entry, to
  the input array it was cast from.
-/
import proofs.«151457_g26603027432195_retrytranche2_1891_15_alg».proof.Proof.Gen.KernelIdeal.Frame
import proofs.«151457_g26603027432195_retrytranche2_1891_15_alg».proof.Proof.Spec
import Idealize.ShloMosaic.Lib.Pipeline.Value
import Idealize.ShloMosaic.Lib.ValueIdx

set_option maxRecDepth 16384

noncomputable section

namespace Cert.KernelIdeal.Reg0

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-! ## The grid's arithmetic -/

/-- The offset (0, 0) of the body's one load and one store, as the constant-zero offset. -/
theorem offsets_zero : (![0, 0] : Fin 2 → Nat) = fun _ => 0 := funext fun a => by fin_cases a <;> rfl

/-- The four index maps over the 50 points: an input band and its output band sit at the same block index,
    which is (t, 0) — band t of rows, the one band of columns. -/
theorem band_index : ∀ t : Fin cfg0.N,
    win0_0.index t (0 : Fin 2) = win0_2.index t (0 : Fin 2)
    ∧ win0_0.index t (1 : Fin 2) = win0_2.index t (1 : Fin 2)
    ∧ win0_1.index t (0 : Fin 2) = win0_3.index t (0 : Fin 2)
    ∧ win0_1.index t (1 : Fin 2) = win0_3.index t (1 : Fin 2)
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r lies in band r / 200, and there are 50 bands. -/
def bandOf (i : S10000x10000.Idx) : Fin cfg0.N :=
  ⟨(i 0).val / 200, by have h : (i 0).val < 10000 := (i 0).isLt; have hN : cfg0.N = 50 := N_0; rw [hN]; omega⟩

theorem bandOf_val (i : S10000x10000.Idx) : (bandOf i).val = (i 0).val / 200 := rfl

/-! ## The first output: the cast of the first adjacency matrix -/

/-- What point t writes back to the first output is band t of the first adjacency matrix: the stored value at an
    entry is the loaded entry (the format change is the identity), and the input band and the output band sit
    at the same rows and columns of their arrays. -/
theorem flushed2_eq (c : Dev nD) (t : Fin cfg0.N) :
    (dat0 (F := Ideal) V c).flushed 2 t
      = ((cfg0.win 2).blk t).view.read (Elt Ideal) (V c main_arg1 : Cert.Spec.Mat 10000 10000) := by
  show (cfg0.win 2).cut (grid0.coords t) ((dat0 (F := Ideal) V c).after 2 t) = _
  rw [after0_2]
  unfold out0_2
  rw [View.canon_unit_zero offsets_zero]
  simp only [View.ld_unit_zero (S := S200x10000) offsets_zero]
  obtain ⟨e0, e1, -, -, -, -, -, -⟩ := band_index t
  funext y
  show V c main_arg1 (((cfg0.win 0).blk t).view.emb y) = V c main_arg1 (((cfg0.win 2).blk t).view.emb y)
  refine congrArg (V c main_arg1) ?_
  funext a; apply Fin.ext
  match a with
  | ⟨0, _⟩ =>
    show win0_0.index t (0 : Fin 2) * 200 + 1 * (y 0).val = win0_2.index t (0 : Fin 2) * 200 + 1 * (y 0).val
    omega
  | ⟨1, _⟩ =>
    show win0_0.index t (1 : Fin 2) * 10000 + 1 * (y 1).val = win0_2.index t (1 : Fin 2) * 10000 + 1 * (y 1).val
    omega

/-- An entry of the output array is in point t's band iff each coordinate is in the band's range on its axis. -/
theorem mem_blk2 (t : Fin cfg0.N) (i : S10000x10000.Idx) :
    i ∈ ((cfg0.win 2).blk t).view.set ↔ ∀ a : Fin 2, win0_2.index t a * S200x10000.size a ≤ (i a).val
      ∧ (i a).val < win0_2.index t a * S200x10000.size a + S200x10000.size a := by
  show i ∈ ((View.whole main_v0_0).slice (win0_2.rect t)).set ↔ _
  rw [View.set_slice_whole, Rect.mem_set_unit]
  exact Iff.rfl

/-- The 50 bands cover the array: entry (r, k) is in band r / 200. -/
theorem cover2 (i : S10000x10000.Idx) :
    ∃ t : Fin cfg0.N, (cfg0.win 2).flush t = true ∧ i ∈ ((cfg0.win 2).blk t).view.set := by
  have hi0 : (i 0).val < 10000 := (i 0).isLt
  have hi1 : (i 1).val < 10000 := (i 1).isLt
  obtain ⟨-, -, -, -, q0, q1, -, -⟩ := band_index (bandOf i)
  rw [bandOf_val] at q0
  refine ⟨bandOf i, flush0_2 _, ?_⟩
  rw [mem_blk2]
  intro a
  match a with
  | ⟨0, _⟩ =>
    show win0_2.index (bandOf i) (0 : Fin 2) * 200 ≤ (i 0).val
      ∧ (i 0).val < win0_2.index (bandOf i) (0 : Fin 2) * 200 + 200
    omega
  | ⟨1, _⟩ =>
    show win0_2.index (bandOf i) (1 : Fin 2) * 10000 ≤ (i 1).val
      ∧ (i 1).val < win0_2.index (bandOf i) (1 : Fin 2) * 10000 + 10000
    omega

/-- The first output array after the region is the first adjacency matrix. -/
theorem final0_2 (c : Dev nD) :
    (dat0 (F := Ideal) V c).arrAt 2 cfg0.N = (V c main_arg1 : Cert.Spec.Mat 10000 10000) :=
  (dat0 (F := Ideal) V c).arrAt_eq_of_cover 2 (V c main_arg1 : Cert.Spec.Mat 10000 10000)
    (fun t _ => flushed2_eq V c t) cover2

/-! ## The second output: the cast of the second adjacency matrix -/

/-- What point t writes back to the second output is band t of the second adjacency matrix, for the same two
    reasons as for the first. -/
theorem flushed3_eq (c : Dev nD) (t : Fin cfg0.N) :
    (dat0 (F := Ideal) V c).flushed 3 t
      = ((cfg0.win 3).blk t).view.read (Elt Ideal) (V c main_arg2 : Cert.Spec.Mat 10000 10000) := by
  show (cfg0.win 3).cut (grid0.coords t) ((dat0 (F := Ideal) V c).after 3 t) = _
  rw [after0_3]
  unfold out0_3
  rw [View.canon_unit_zero offsets_zero]
  simp only [View.ld_unit_zero (S := S200x10000) offsets_zero]
  obtain ⟨-, -, e0, e1, -, -, -, -⟩ := band_index t
  funext y
  show V c main_arg2 (((cfg0.win 1).blk t).view.emb y) = V c main_arg2 (((cfg0.win 3).blk t).view.emb y)
  refine congrArg (V c main_arg2) ?_
  funext a; apply Fin.ext
  match a with
  | ⟨0, _⟩ =>
    show win0_1.index t (0 : Fin 2) * 200 + 1 * (y 0).val = win0_3.index t (0 : Fin 2) * 200 + 1 * (y 0).val
    omega
  | ⟨1, _⟩ =>
    show win0_1.index t (1 : Fin 2) * 10000 + 1 * (y 1).val = win0_3.index t (1 : Fin 2) * 10000 + 1 * (y 1).val
    omega

/-- An entry of the second output array is in point t's band iff each coordinate is in the band's range. -/
theorem mem_blk3 (t : Fin cfg0.N) (i : S10000x10000.Idx) :
    i ∈ ((cfg0.win 3).blk t).view.set ↔ ∀ a : Fin 2, win0_3.index t a * S200x10000.size a ≤ (i a).val
      ∧ (i a).val < win0_3.index t a * S200x10000.size a + S200x10000.size a := by
  show i ∈ ((View.whole main_v0_1).slice (win0_3.rect t)).set ↔ _
  rw [View.set_slice_whole, Rect.mem_set_unit]
  exact Iff.rfl

/-- The 50 bands cover the second output array as they cover the first. -/
theorem cover3 (i : S10000x10000.Idx) :
    ∃ t : Fin cfg0.N, (cfg0.win 3).flush t = true ∧ i ∈ ((cfg0.win 3).blk t).view.set := by
  have hi0 : (i 0).val < 10000 := (i 0).isLt
  have hi1 : (i 1).val < 10000 := (i 1).isLt
  obtain ⟨-, -, -, -, -, -, q0, q1⟩ := band_index (bandOf i)
  rw [bandOf_val] at q0
  refine ⟨bandOf i, flush0_3 _, ?_⟩
  rw [mem_blk3]
  intro a
  match a with
  | ⟨0, _⟩ =>
    show win0_3.index (bandOf i) (0 : Fin 2) * 200 ≤ (i 0).val
      ∧ (i 0).val < win0_3.index (bandOf i) (0 : Fin 2) * 200 + 200
    omega
  | ⟨1, _⟩ =>
    show win0_3.index (bandOf i) (1 : Fin 2) * 10000 ≤ (i 1).val
      ∧ (i 1).val < win0_3.index (bandOf i) (1 : Fin 2) * 10000 + 10000
    omega

/-- The second output array after the region is the second adjacency matrix. -/
theorem final0_3 (c : Dev nD) :
    (dat0 (F := Ideal) V c).arrAt 3 cfg0.N = (V c main_arg2 : Cert.Spec.Mat 10000 10000) :=
  (dat0 (F := Ideal) V c).arrAt_eq_of_cover 3 (V c main_arg2 : Cert.Spec.Mat 10000 10000)
    (fun t _ => flushed3_eq V c t) cover3

end Cert.KernelIdeal.Reg0

end
-- ==== Proof.Bodies.lean ====
/-
  What each kernel body stores, read at one entry, over the extended reals.
  The embedding body stores tanh (x · Wᵀ + b) of its whole operands; a layer body stores, for its 400 rows of the two
  adjacency matrices, tanh (((A_pos · h) · Wpᵀ + bp) + ((A_neg · h) · Wnᵀ + bn)). A matrix product into a zero
  accumulator is the plain sum over its contraction index; a change of float format is the identity.
-/
import proofs.«151457_g26603027432195_retrytranche2_1891_15_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bodies

open Idealize.ShloMosaic Idealize.ShloMosaic.ValueIdx
open Cert.KernelIdeal Cert.KernelIdeal.Gen

/-! ## The embedding product x · Wᵀ: both operands are contracted along their second axis -/

theorem lhs_embed_0 (i : S10000x128.Idx) (c : dot_S10000x128_S128x128_S10000x128_1_1_0_0_n_n.contr.Idx) :
    (dot_S10000x128_S128x128_S10000x128_1_1_0_0_n_n.lhsIdx i c 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_embed_1 (i : S10000x128.Idx) (c : dot_S10000x128_S128x128_S10000x128_1_1_0_0_n_n.contr.Idx) :
    (dot_S10000x128_S128x128_S10000x128_1_1_0_0_n_n.lhsIdx i c 1).val = (c ⟨0, by decide⟩).val :=
  dot_S10000x128_S128x128_S10000x128_1_1_0_0_n_n.lhsIdx_val_of_single rfl i c
theorem rhs_embed_0 (i : S10000x128.Idx) (c : dot_S10000x128_S128x128_S10000x128_1_1_0_0_n_n.contr.Idx) :
    (dot_S10000x128_S128x128_S10000x128_1_1_0_0_n_n.rhsIdx i c 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_embed_1 (i : S10000x128.Idx) (c : dot_S10000x128_S128x128_S10000x128_1_1_0_0_n_n.contr.Idx) :
    (dot_S10000x128_S128x128_S10000x128_1_1_0_0_n_n.rhsIdx i c 1).val = (c ⟨0, by decide⟩).val :=
  dot_S10000x128_S128x128_S10000x128_1_1_0_0_n_n.rhsIdx_val_of_single rfl i c

/-- The product into the zero accumulator at (p, q): row p of the left operand against row q of the right. -/
theorem matmul_embed_apply (x : Vec Ideal S10000x128 .bf16) (w : Vec Ideal S128x128 .bf16) (p : Fin 10000) (q : Fin 128) :
    matmul (φ₁ := .bf16) (φ₂ := .bf16) dot_S10000x128_S128x128_S10000x128_1_1_0_0_n_n none x w (constant (F := Ideal) S10000x128 .f32 0x00000000#32) (ix2 p q)
      = ∑ k : Fin 128, x (ix2 p k) * w (ix2 q k) := by
  show FloatOps.matmul (φ₁ := .bf16) (φ₂ := .bf16) dot_S10000x128_S128x128_S10000x128_1_1_0_0_n_n none x w (constant (F := Ideal) S10000x128 .f32 0x00000000#32) (ix2 p q) = _
  rw [Ideal.matmul_constant_zero_apply, ← Equiv.sum_comp (ValueIdx.contrEquiv1 dot_S10000x128_S128x128_S10000x128_1_1_0_0_n_n 128 rfl rfl).symm]
  refine Finset.sum_congr rfl fun k _ => ?_
  have hk := ValueIdx.contrEquiv1_symm_val dot_S10000x128_S128x128_S10000x128_1_1_0_0_n_n 128 rfl rfl k
  have el : dot_S10000x128_S128x128_S10000x128_1_1_0_0_n_n.lhsIdx (ix2 p q) ((ValueIdx.contrEquiv1 dot_S10000x128_S128x128_S10000x128_1_1_0_0_n_n 128 rfl rfl).symm k) = ix2 p k := funext fun a => Fin.ext (by
    match a with
    | ⟨0, _⟩ => exact lhs_embed_0 _ _
    | ⟨1, _⟩ => exact (lhs_embed_1 _ _).trans hk)
  have er : dot_S10000x128_S128x128_S10000x128_1_1_0_0_n_n.rhsIdx (ix2 p q) ((ValueIdx.contrEquiv1 dot_S10000x128_S128x128_S10000x128_1_1_0_0_n_n 128 rfl rfl).symm k) = ix2 q k := funext fun a => Fin.ext (by
    match a with
    | ⟨0, _⟩ => exact rhs_embed_0 _ _
    | ⟨1, _⟩ => exact (rhs_embed_1 _ _).trans hk)
  rw [el, er]

/-- The bias row broadcast over 10000 rows, read at (p, q): the row's entry (0, q). -/
theorem bias10000_apply (b : Vec Ideal S1x128 .f32) (p : Fin 10000) (q : Fin 128) :
    broadcastTo S10000x128 b broadcasts_S1x128_S10000x128 (ix2 p q) = b (ix2 0 q) :=
  broadcastTo_apply b broadcasts_S1x128_S10000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The embedding body at entry (p, q): the 128-term product of row p of x with row q of W, plus the bias row, under tanh. -/
theorem k1_pay1_apply (x : Vec Ideal S10000x128 .bf16) (w : Vec Ideal S128x128 .bf16) (b : Vec Ideal S1x128 .f32)
    (p : Fin 10000) (q : Fin 128) :
    k1_pay1 (F := Ideal) x w b (ix2 p q)
      = Ideal.tanh ((∑ k : Fin 128, x (ix2 p k) * w (ix2 q k)) + b (ix2 0 q)) := by
  unfold k1_pay1
  simp only [shapeCast_self]
  show Ideal.tanh (matmul (φ₁ := .bf16) (φ₂ := .bf16) dot_S10000x128_S128x128_S10000x128_1_1_0_0_n_n none x w (constant (F := Ideal) S10000x128 .f32 0x00000000#32) (ix2 p q)
        + broadcastTo S10000x128 b broadcasts_S1x128_S10000x128 (ix2 p q)) = _
  rw [matmul_embed_apply, bias10000_apply]

/-! ## The aggregation product A · h: the left operand is contracted along its second axis, the right along its first -/

theorem lhs_agg_0 (i : S400x128.Idx) (c : dot_S400x10000_S10000x128_S400x128_1_0_0_1_n_n.contr.Idx) :
    (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (c : dot_S400x10000_S10000x128_S400x128_1_0_0_1_n_n.contr.Idx) :
    (dot_S400x10000_S10000x128_S400x128_1_0_0_1_n_n.lhsIdx i c 1).val = (c ⟨0, by decide⟩).val :=
  dot_S400x10000_S10000x128_S400x128_1_0_0_1_n_n.lhsIdx_val_of_single rfl i c
theorem rhs_agg_0 (i : S400x128.Idx) (c : dot_S400x10000_S10000x128_S400x128_1_0_0_1_n_n.contr.Idx) :
    (dot_S400x10000_S10000x128_S400x128_1_0_0_1_n_n.rhsIdx i c 0).val = (c ⟨0, by decide⟩).val :=
  dot_S400x10000_S10000x128_S400x128_1_0_0_1_n_n.rhsIdx_val_of_single rfl i c
theorem rhs_agg_1 (i : S400x128.Idx) (c : dot_S400x10000_S10000x128_S400x128_1_0_0_1_n_n.contr.Idx) :
    (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product into the zero accumulator at (p, k): row p of the adjacency block against column k of the features. -/
theorem matmul_agg_apply (a : FVec Ideal S400x10000 .bf16) (h : FVec Ideal S10000x128 .bf16) (p : Fin 400) (k : Fin 128) :
    matmul (φ₁ := .bf16) (φ₂ := .bf16) dot_S400x10000_S10000x128_S400x128_1_0_0_1_n_n none a h (constant (F := Ideal) S400x128 .f32 0x00000000#32) (ix2 p k)
      = ∑ l : Fin 10000, a (ix2 p l) * h (ix2 l k) := by
  show FloatOps.matmul (φ₁ := .bf16) (φ₂ := .bf16) dot_S400x10000_S10000x128_S400x128_1_0_0_1_n_n none a h (constant (F := Ideal) S400x128 .f32 0x00000000#32) (ix2 p k) = _
  rw [Ideal.matmul_constant_zero_apply, ← Equiv.sum_comp (ValueIdx.contrEquiv1 dot_S400x10000_S10000x128_S400x128_1_0_0_1_n_n 10000 rfl rfl).symm]
  refine Finset.sum_congr rfl fun l _ => ?_
  have hl := ValueIdx.contrEquiv1_symm_val dot_S400x10000_S10000x128_S400x128_1_0_0_1_n_n 10000 rfl rfl l
  have el : dot_S400x10000_S10000x128_S400x128_1_0_0_1_n_n.lhsIdx (ix2 p k) ((ValueIdx.contrEquiv1 dot_S400x10000_S10000x128_S400x128_1_0_0_1_n_n 10000 rfl rfl).symm l) = ix2 p l := funext fun a => Fin.ext (by
    match a with
    | ⟨0, _⟩ => exact lhs_agg_0 _ _
    | ⟨1, _⟩ => exact (lhs_agg_1 _ _).trans hl)
  have er : dot_S400x10000_S10000x128_S400x128_1_0_0_1_n_n.rhsIdx (ix2 p k) ((ValueIdx.contrEquiv1 dot_S400x10000_S10000x128_S400x128_1_0_0_1_n_n 10000 rfl rfl).symm l) = ix2 l k := funext fun a => Fin.ext (by
    match a with
    | ⟨0, _⟩ => exact (rhs_agg_0 _ _).trans hl
    | ⟨1, _⟩ => exact rhs_agg_1 _ _)
  rw [el, er]

/-! ## The mixing product g · Wᵀ on a 400-row block: both operands are contracted along their second axis -/

theorem lhs_mix_0 (i : S400x128.Idx) (c : dot_S400x128_S128x128_S400x128_1_1_0_0_n_n.contr.Idx) :
    (dot_S400x128_S128x128_S400x128_1_1_0_0_n_n.lhsIdx i c 0).val = (i 0).val := by
  unfold DotDims.lhsIdx
  rw [dif_neg (show ¬(0 : Fin S400x128.rank) ∈ dot_S400x128_S128x128_S400x128_1_1_0_0_n_n.lhsBatch by decide), dif_pos (show (0 : Fin S400x128.rank) ∈ dot_S400x128_S128x128_S400x128_1_1_0_0_n_n.lhsNonContracting by decide)]
  rfl
theorem lhs_mix_1 (i : S400x128.Idx) (c : dot_S400x128_S128x128_S400x128_1_1_0_0_n_n.contr.Idx) :
    (dot_S400x128_S128x128_S400x128_1_1_0_0_n_n.lhsIdx i c 1).val = (c ⟨0, by decide⟩).val :=
  dot_S400x128_S128x128_S400x128_1_1_0_0_n_n.lhsIdx_val_of_single rfl i c
theorem rhs_mix_0 (i : S400x128.Idx) (c : dot_S400x128_S128x128_S400x128_1_1_0_0_n_n.contr.Idx) :
    (dot_S400x128_S128x128_S400x128_1_1_0_0_n_n.rhsIdx i c 0).val = (i 1).val := by
  unfold DotDims.rhsIdx
  rw [dif_neg (show ¬(0 : Fin S128x128.rank) ∈ dot_S400x128_S128x128_S400x128_1_1_0_0_n_n.rhsBatch by decide), dif_pos (show (0 : Fin S128x128.rank) ∈ dot_S400x128_S128x128_S400x128_1_1_0_0_n_n.rhsNonContracting by decide)]
  rfl
theorem rhs_mix_1 (i : S400x128.Idx) (c : dot_S400x128_S128x128_S400x128_1_1_0_0_n_n.contr.Idx) :
    (dot_S400x128_S128x128_S400x128_1_1_0_0_n_n.rhsIdx i c 1).val = (c ⟨0, by decide⟩).val :=
  dot_S400x128_S128x128_S400x128_1_1_0_0_n_n.rhsIdx_val_of_single rfl i c

/-- The product into the zero accumulator at (p, q): row p of the left operand against row q of the right. -/
theorem matmul_mix_apply (g : FVec Ideal S400x128 .bf16) (w : FVec Ideal S128x128 .bf16) (p : Fin 400) (q : Fin 128) :
    matmul (φ₁ := .bf16) (φ₂ := .bf16) dot_S400x128_S128x128_S400x128_1_1_0_0_n_n none g w (constant (F := Ideal) S400x128 .f32 0x00000000#32) (ix2 p q)
      = ∑ k : Fin 128, g (ix2 p k) * w (ix2 q k) := by
  show FloatOps.matmul (φ₁ := .bf16) (φ₂ := .bf16) dot_S400x128_S128x128_S400x128_1_1_0_0_n_n none g w (constant (F := Ideal) S400x128 .f32 0x00000000#32) (ix2 p q) = _
  rw [Ideal.matmul_constant_zero_apply, ← Equiv.sum_comp (ValueIdx.contrEquiv1 dot_S400x128_S128x128_S400x128_1_1_0_0_n_n 128 rfl rfl).symm]
  refine Finset.sum_congr rfl fun k _ => ?_
  have hk := ValueIdx.contrEquiv1_symm_val dot_S400x128_S128x128_S400x128_1_1_0_0_n_n 128 rfl rfl k
  have el : dot_S400x128_S128x128_S400x128_1_1_0_0_n_n.lhsIdx (ix2 p q) ((ValueIdx.contrEquiv1 dot_S400x128_S128x128_S400x128_1_1_0_0_n_n 128 rfl rfl).symm k) = ix2 p k := funext fun a => Fin.ext (by
    match a with
    | ⟨0, _⟩ => exact lhs_mix_0 _ _
    | ⟨1, _⟩ => exact (lhs_mix_1 _ _).trans hk)
  have er : dot_S400x128_S128x128_S400x128_1_1_0_0_n_n.rhsIdx (ix2 p q) ((ValueIdx.contrEquiv1 dot_S400x128_S128x128_S400x128_1_1_0_0_n_n 128 rfl rfl).symm k) = ix2 q k := funext fun a => Fin.ext (by
    match a with
    | ⟨0, _⟩ => exact rhs_mix_0 _ _
    | ⟨1, _⟩ => exact (rhs_mix_1 _ _).trans hk)
  rw [el, er]

/-- The bias row broadcast over 400 rows, read at (p, q): the row's entry (0, q). -/
theorem bias400_apply (b : Vec Ideal S1x128 .f32) (p : Fin 400) (q : Fin 128) :
    broadcastTo S400x128 b broadcasts_S1x128_S400x128 (ix2 p q) = b (ix2 0 q) :=
  broadcastTo_apply b broadcasts_S1x128_S400x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- One branch of a layer: the aggregated features, narrowed in format (the identity here), mixed by Wᵀ. -/
theorem branch_apply (a : FVec Ideal S400x10000 .bf16) (h : FVec Ideal S10000x128 .bf16) (w : FVec Ideal S128x128 .bf16)
    (hb : FTy.bits .bf16 < FTy.bits .f32) (p : Fin 400) (q : Fin 128) :
    matmul (φ₁ := .bf16) (φ₂ := .bf16) dot_S400x128_S128x128_S400x128_1_1_0_0_n_n none
        (truncf .bf16 (matmul (φ₁ := .bf16) (φ₂ := .bf16) dot_S400x10000_S10000x128_S400x128_1_0_0_1_n_n none a h (constant (F := Ideal) S400x128 .f32 0x00000000#32)) hb)
        w (constant (F := Ideal) S400x128 .f32 0x00000000#32) (ix2 p q)
      = ∑ k : Fin 128, (∑ l : Fin 10000, a (ix2 p l) * h (ix2 l k)) * w (ix2 q k) := by
  refine (matmul_mix_apply _ w p q).trans ?_
  refine Finset.sum_congr rfl fun k _ => ?_
  rw [truncf_apply, matmul_agg_apply]

/-- A layer body (first layer) at entry (p, q) of its 400-row block. Arguments in the body's load order:
    the features h, the A_pos rows, the A_neg rows, Wp, bp, Wn, bn. -/
theorem k2_pay1_apply (h : Vec Ideal S10000x128 .bf16) (ap an : Vec Ideal S400x10000 .bf16)
    (wp : Vec Ideal S128x128 .bf16) (bp : Vec Ideal S1x128 .f32) (wn : Vec Ideal S128x128 .bf16) (bn : Vec Ideal S1x128 .f32)
    (p : Fin 400) (q : Fin 128) :
    k2_pay1 (F := Ideal) h ap an wp bp wn bn (ix2 p q)
      = Ideal.tanh (((∑ k : Fin 128, (∑ l : Fin 10000, ap (ix2 p l) * h (ix2 l k)) * wp (ix2 q k)) + bp (ix2 0 q))
                  + ((∑ k : Fin 128, (∑ l : Fin 10000, an (ix2 p l) * h (ix2 l k)) * wn (ix2 q k)) + bn (ix2 0 q))) := by
  unfold k2_pay1
  simp only [shapeCast_self]
  show Ideal.tanh ((matmul (φ₁ := .bf16) (φ₂ := .bf16) dot_S400x128_S128x128_S400x128_1_1_0_0_n_n none
          (truncf .bf16 (matmul (φ₁ := .bf16) (φ₂ := .bf16) dot_S400x10000_S10000x128_S400x128_1_0_0_1_n_n none ap h (constant (F := Ideal) S400x128 .f32 0x00000000#32)) bitsLt_bf16_f32)
          wp (constant (F := Ideal) S400x128 .f32 0x00000000#32) (ix2 p q)
        + broadcastTo S400x128 bp broadcasts_S1x128_S400x128 (ix2 p q))
      + (matmul (φ₁ := .bf16) (φ₂ := .bf16) dot_S400x128_S128x128_S400x128_1_1_0_0_n_n none
          (truncf .bf16 (matmul (φ₁ := .bf16) (φ₂ := .bf16) dot_S400x10000_S10000x128_S400x128_1_0_0_1_n_n none an h (constant (F := Ideal) S400x128 .f32 0x00000000#32)) bitsLt_bf16_f32)
          wn (constant (F := Ideal) S400x128 .f32 0x00000000#32) (ix2 p q)
        + broadcastTo S400x128 bn broadcasts_S1x128_S400x128 (ix2 p q))) = _
  rw [branch_apply, branch_apply, bias400_apply, bias400_apply]

/-- The second layer's body is the same function. -/
theorem k3_pay1_apply (h : Vec Ideal S10000x128 .bf16) (ap an : Vec Ideal S400x10000 .bf16)
    (wp : Vec Ideal S128x128 .bf16) (bp : Vec Ideal S1x128 .f32) (wn : Vec Ideal S128x128 .bf16) (bn : Vec Ideal S1x128 .f32)
    (p : Fin 400) (q : Fin 128) :
    k3_pay1 (F := Ideal) h ap an wp bp wn bn (ix2 p q)
      = Ideal.tanh (((∑ k : Fin 128, (∑ l : Fin 10000, ap (ix2 p l) * h (ix2 l k)) * wp (ix2 q k)) + bp (ix2 0 q))
                  + ((∑ k : Fin 128, (∑ l : Fin 10000, an (ix2 p l) * h (ix2 l k)) * wn (ix2 q k)) + bn (ix2 0 q))) := by
  unfold k3_pay1
  simp only [shapeCast_self]
  show Ideal.tanh ((matmul (φ₁ := .bf16) (φ₂ := .bf16) dot_S400x128_S128x128_S400x128_1_1_0_0_n_n none
          (truncf .bf16 (matmul (φ₁ := .bf16) (φ₂ := .bf16) dot_S400x10000_S10000x128_S400x128_1_0_0_1_n_n none ap h (constant (F := Ideal) S400x128 .f32 0x00000000#32)) bitsLt_bf16_f32)
          wp (constant (F := Ideal) S400x128 .f32 0x00000000#32) (ix2 p q)
        + broadcastTo S400x128 bp broadcasts_S1x128_S400x128 (ix2 p q))
      + (matmul (φ₁ := .bf16) (φ₂ := .bf16) dot_S400x128_S128x128_S400x128_1_1_0_0_n_n none
          (truncf .bf16 (matmul (φ₁ := .bf16) (φ₂ := .bf16) dot_S400x10000_S10000x128_S400x128_1_0_0_1_n_n none an h (constant (F := Ideal) S400x128 .f32 0x00000000#32)) bitsLt_bf16_f32)
          wn (constant (F := Ideal) S400x128 .f32 0x00000000#32) (ix2 p q)
        + broadcastTo S400x128 bn broadcasts_S1x128_S400x128 (ix2 p q))) = _
  rw [branch_apply, branch_apply, bias400_apply, bias400_apply]

end Cert.KernelIdeal.Bodies

end
-- ==== Proof.Reg1.lean ====
/-
  The embedding region's output array, whole.

  The region has no grid: its one point stages the whole of x (10000 x 128), of W (128 x 128) and of the bias row
  (1 x 128), and writes back the whole 10000 x 128 output. Each window's one block sits at block index (0, 0) and has
  the array's own extents, so an entry of a block is the same entry of its array. The body stores, at entry (p, q),
  tanh of the 128-term product of row p of x with row q of W plus the bias at column q; that is the embedding of the
  specification, entry by entry, and the one block covers the whole output array.
-/
import proofs.«151457_g26603027432195_retrytranche2_1891_15_alg».proof.Proof.Gen.KernelIdeal.Frame
import proofs.«151457_g26603027432195_retrytranche2_1891_15_alg».proof.Proof.Spec
import proofs.«151457_g26603027432195_retrytranche2_1891_15_alg».proof.Proof.Bodies
import Idealize.ShloMosaic.Lib.Pipeline.Value
import Idealize.ShloMosaic.Lib.ValueIdx

set_option maxRecDepth 16384

noncomputable section

namespace Cert.KernelIdeal.Reg1

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-! ## A whole-array block is its array -/

/-- The offset (0, 0) of the body's loads and of its store, as the constant-zero offset. -/
theorem offsets_zero : (![0, 0] : Fin 2 → Nat) = fun _ => 0 := funext fun a => by fin_cases a <;> rfl

/-- An entry of the block of x is the same entry of x: block index 0 on both axes, unit stride. -/
theorem emb_x (t : Fin cfg1.N) (y : S10000x128.Idx) : ((cfg1.win 0).blk t).view.emb y = y := by
  funext a; apply Fin.ext
  match a with
  | ⟨0, _⟩ => show 0 * 10000 + 1 * (y 0).val = (y 0).val; omega
  | ⟨1, _⟩ => show 0 * 128 + 1 * (y 1).val = (y 1).val; omega

/-- An entry of the block of W is the same entry of W. -/
theorem emb_w (t : Fin cfg1.N) (y : S128x128.Idx) : ((cfg1.win 1).blk t).view.emb y = y := by
  funext a; apply Fin.ext
  match a with
  | ⟨0, _⟩ => show 0 * 128 + 1 * (y 0).val = (y 0).val; omega
  | ⟨1, _⟩ => show 0 * 128 + 1 * (y 1).val = (y 1).val; omega

/-- An entry of the block of the bias row is the same entry of the row. -/
theorem emb_b (t : Fin cfg1.N) (y : S1x128.Idx) : ((cfg1.win 2).blk t).view.emb y = y := by
  funext a; apply Fin.ext
  match a with
  | ⟨0, _⟩ => show 0 * 1 + 1 * (y 0).val = (y 0).val; omega
  | ⟨1, _⟩ => show 0 * 128 + 1 * (y 1).val = (y 1).val; omega

/-- An entry of the output block is the same entry of the output array. -/
theorem emb_out (t : Fin cfg1.N) (y : S10000x128.Idx) : ((cfg1.win 3).blk t).view.emb y = y := by
  funext a; apply Fin.ext
  match a with
  | ⟨0, _⟩ => show 0 * 10000 + 1 * (y 0).val = (y 0).val; omega
  | ⟨1, _⟩ => show 0 * 128 + 1 * (y 1).val = (y 1).val; omega

/-- So the staged block of x is x, -/
theorem blk_x (c : Dev nD) (t : Fin cfg1.N) :
    (iblk1 (F := Ideal) V c 0 t : Vec Ideal S10000x128 .bf16) = V c main_v1 := by
  funext y
  show V c main_v1 (((cfg1.win 0).blk t).view.emb y) = V c main_v1 y
  rw [emb_x]

/-- the staged block of W is W, -/
theorem blk_w (c : Dev nD) (t : Fin cfg1.N) :
    (iblk1 (F := Ideal) V c 1 t : Vec Ideal S128x128 .bf16) = V c main_v2 := by
  funext y
  show V c main_v2 (((cfg1.win 1).blk t).view.emb y) = V c main_v2 y
  rw [emb_w]

/-- and the staged block of the bias row is the bias row. -/
theorem blk_b (c : Dev nD) (t : Fin cfg1.N) :
    (iblk1 (F := Ideal) V c 2 t : Vec Ideal S1x128 .f32) = V c main_v3 := by
  funext y
  show V c main_v3 (((cfg1.win 2).blk t).view.emb y) = V c main_v3 y
  rw [emb_b]

/-! ## What the one point writes back, and the whole array -/

/-- The body's stored value at entry (p, q), over operands of the specification's matrix types, is the
    specification's embedding at (p, q). -/
theorem stored_entry (x : Vec Ideal S10000x128 .bf16) (w : Vec Ideal S128x128 .bf16) (b : Vec Ideal S1x128 .f32)
    (p : Fin 10000) (q : Fin 128) :
    k1_pay1 (F := Ideal) x w b (ix2 p q) = Cert.Spec.embedK x w b (ix2 p q) := by
  rw [Bodies.k1_pay1_apply]
  rfl

/-- What the one point writes back is the one block of the embedding of the three staged arrays. -/
theorem flushed3_eq (c : Dev nD) (t : Fin cfg1.N) :
    (dat1 (F := Ideal) V c).flushed 3 t
      = ((cfg1.win 3).blk t).view.read (Elt Ideal) (Cert.Spec.embedK (V c main_v1) (V c main_v2) (V c main_v3)) := by
  show (cfg1.win 3).cut (grid1.coords t) ((dat1 (F := Ideal) V c).after 3 t) = _
  rw [after1_3]
  unfold out1_3
  rw [View.canon_unit_zero offsets_zero]
  simp only [View.ld_unit_zero (S := S10000x128) offsets_zero, View.ld_unit_zero (S := S128x128) offsets_zero,
    View.ld_unit_zero (S := S1x128) offsets_zero]
  rw [blk_x, blk_w, blk_b]
  funext j
  obtain ⟨p, q, rfl⟩ : ∃ (p : Fin 10000) (q : Fin 128), j = ix2 p q := ⟨j 0, j 1, eq_ix2 j⟩
  show k1_pay1 (F := Ideal) (V c main_v1) (V c main_v2) (V c main_v3) (ix2 p q)
    = Cert.Spec.embedK (V c main_v1) (V c main_v2) (V c main_v3) (((cfg1.win 3).blk t).view.emb (ix2 p q))
  rw [emb_out, stored_entry]

/-- An entry of the output array is in the point's block iff each coordinate is in the block's range. -/
theorem mem_blk3 (t : Fin cfg1.N) (i : S10000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v4).slice (win1_3.rect t)).set ↔ _
  rw [View.set_slice_whole, Rect.mem_set_unit]
  exact Iff.rfl

/-- The one block is the whole array, so it covers every entry. -/
theorem cover3 (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  refine ⟨t1_0, flush1_3 _, ?_⟩
  rw [mem_blk3]
  intro a
  match a with
  | ⟨0, _⟩ => show 0 * 10000 ≤ (i 0).val ∧ (i 0).val < 0 * 10000 + 10000; omega
  | ⟨1, _⟩ => show 0 * 128 ≤ (i 1).val ∧ (i 1).val < 0 * 128 + 128; omega

/-- The output array after the region is the embedding of x, W and the bias row as the region finds them. -/
theorem final1_3 (c : Dev nD) :
    (dat1 (F := Ideal) V c).arrAt 3 cfg1.N = Cert.Spec.embedK (V c main_v1) (V c main_v2) (V c main_v3) :=
  (dat1 (F := Ideal) V c).arrAt_eq_of_cover 3 (Cert.Spec.embedK (V c main_v1) (V c main_v2) (V c main_v3))
    (fun t _ => flushed3_eq V c t) cover3

end Cert.KernelIdeal.Reg1

end
-- ==== Proof.Reg2.lean ====
/-
  The first propagation layer as a whole array.

  The layer runs over 25 grid points. Point t is handed rows 400·t … 400·t+399 of the two adjacency matrices and the
  whole of the features, the two weight matrices and the two bias rows, and writes rows 400·t … 400·t+399 of the output.
  Entry (p, q) of what point t writes is the layer's value at row 400·t+p, column q: the block of an adjacency matrix
  at (p, l) is the matrix at (400·t+p, l), and every other operand is read where it lies. Since 25 · 400 = 10000 and the
  output has a single block column, row r of the output belongs to point r / 400, so the 25 blocks fill the array and the
  array ends as the layer of the arrays the region found.
-/
import proofs.«151457_g26603027432195_retrytranche2_1891_15_alg».proof.Proof.Gen.KernelIdeal.Frame
import proofs.«151457_g26603027432195_retrytranche2_1891_15_alg».proof.Proof.Spec
import proofs.«151457_g26603027432195_retrytranche2_1891_15_alg».proof.Proof.Bodies
import Idealize.ShloMosaic.Lib.Pipeline.Value
import Idealize.ShloMosaic.Lib.ValueIdx
set_option maxRecDepth 16384
noncomputable section
namespace Cert.KernelIdeal.Reg2
open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The offset pair (0, 0) is the constant zero offset. -/
theorem zero_offsets : (![0, 0] : Fin 2 → Nat) = fun _ => 0 := funext fun a => by fin_cases a <;> rfl

/-- The block indices at every grid point: the adjacency rows and the output sit at block (t, 0); the features, the
    weights and the biases are single blocks at (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- There are 25 grid points. -/
theorem point_lt (t : Fin cfg2.N) : t.val < 25 := t.isLt

/-- Entry (p, l) of point t's block of A_pos is A_pos at (400·t + p, l): the block's offset is its index times its size. -/
theorem pos_rows_read (c : Dev nD) (t : Fin cfg2.N) (p : Fin 400) (l : Fin 10000) :
    iblk2 V c 0 t (ix2 p l) = V c main_v0_0 (ix2 ⟨t.val * 400 + p.val, by have := point_lt t; omega⟩ l) := by
  obtain ⟨e0, e1, -⟩ := block_indices t
  show V c main_v0_0 (((cfg2.win 0).blk t).view.emb (ix2 p l)) = V c main_v0_0 (ix2 ⟨t.val * 400 + p.val, _⟩ l)
  refine congrArg _ ?_
  funext a; apply Fin.ext
  match a with
  | ⟨0, _⟩ => show win2_0.index t (0 : Fin 2) * 400 + 1 * p.val = t.val * 400 + p.val; omega
  | ⟨1, _⟩ => show win2_0.index t (1 : Fin 2) * 10000 + 1 * l.val = l.val; omega

/-- Entry (p, l) of point t's block of A_neg is A_neg at (400·t + p, l). -/
theorem neg_rows_read (c : Dev nD) (t : Fin cfg2.N) (p : Fin 400) (l : Fin 10000) :
    iblk2 V c 1 t (ix2 p l) = V c main_v0_1 (ix2 ⟨t.val * 400 + p.val, by have := point_lt t; omega⟩ l) := by
  obtain ⟨-, -, e0, e1, -⟩ := block_indices t
  show V c main_v0_1 (((cfg2.win 1).blk t).view.emb (ix2 p l)) = V c main_v0_1 (ix2 ⟨t.val * 400 + p.val, _⟩ l)
  refine congrArg _ ?_
  funext a; apply Fin.ext
  match a with
  | ⟨0, _⟩ => show win2_1.index t (0 : Fin 2) * 400 + 1 * p.val = t.val * 400 + p.val; omega
  | ⟨1, _⟩ => show win2_1.index t (1 : Fin 2) * 10000 + 1 * l.val = l.val; omega

/-- The features' single block is the whole feature matrix. -/
theorem features_read (c : Dev nD) (t : Fin cfg2.N) : iblk2 V c 2 t = V c main_v5 := by
  obtain ⟨-, -, -, -, e0, e1, -⟩ := block_indices t
  funext y
  show V c main_v5 (((cfg2.win 2).blk t).view.emb y) = V c main_v5 y
  refine congrArg _ ?_
  funext a; apply Fin.ext
  match a with
  | ⟨0, _⟩ => show win2_2.index t (0 : Fin 2) * 10000 + 1 * (y 0).val = (y 0).val; omega
  | ⟨1, _⟩ => show win2_2.index t (1 : Fin 2) * 128 + 1 * (y 1).val = (y 1).val; omega

/-- The positive weights' single block is the whole matrix. -/
theorem pos_weight_read (c : Dev nD) (t : Fin cfg2.N) : iblk2 V c 3 t = V c main_v6 := by
  obtain ⟨-, -, -, -, -, -, e0, e1, -⟩ := block_indices t
  funext y
  show V c main_v6 (((cfg2.win 3).blk t).view.emb y) = V c main_v6 y
  refine congrArg _ ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The negative weights' single block is the whole matrix. -/
theorem neg_weight_read (c : Dev nD) (t : Fin cfg2.N) : iblk2 V c 4 t = V c main_v7 := by
  obtain ⟨-, -, -, -, -, -, -, -, e0, e1, -⟩ := block_indices t
  funext y
  show V c main_v7 (((cfg2.win 4).blk t).view.emb y) = V c main_v7 y
  refine congrArg _ ?_
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The positive bias row's single block is the whole row. -/
theorem pos_bias_read (c : Dev nD) (t : Fin cfg2.N) : iblk2 V c 5 t = V c main_v8 := by
  obtain ⟨-, -, -, -, -, -, -, -, -, -, e0, e1, -⟩ := block_indices t
  funext y
  show V c main_v8 (((cfg2.win 5).blk t).view.emb y) = V c main_v8 y
  refine congrArg _ ?_
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- The negative bias row's single block is the whole row. -/
theorem neg_bias_read (c : Dev nD) (t : Fin cfg2.N) : iblk2 V c 6 t = V c main_v9 := by
  obtain ⟨-, -, -, -, -, -, -, -, -, -, -, -, e0, e1, -⟩ := block_indices t
  funext y
  show V c main_v9 (((cfg2.win 6).blk t).view.emb y) = V c main_v9 y
  refine congrArg _ ?_
  funext a; apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- One entry of a point's result. If row p of the two adjacency blocks is row r of the two adjacency matrices and the
    other operands are the arrays themselves, the body's value at (p, q) is the layer's value at (r, q): both are
    tanh of ((Σ_k (Σ_l A_pos(r,l) · h(l,k)) · Wp(q,k)) + bp(q)) + ((Σ_k (Σ_l A_neg(r,l) · h(l,k)) · Wn(q,k)) + bn(q)),
    the same sums in the same order. -/
theorem layer_entry (Ap An : Cert.Spec.Mat 10000 10000) (h : Cert.Spec.Mat 10000 128) (Wp Wn : Cert.Spec.Mat 128 128)
    (bp bn : Cert.Spec.Mat 1 128)
    (hb : Vec Ideal S10000x128 .bf16) (ap an : Vec Ideal S400x10000 .bf16) (wp : Vec Ideal S128x128 .bf16)
    (bpb : Vec Ideal S1x128 .f32) (wn : Vec Ideal S128x128 .bf16) (bnb : Vec Ideal S1x128 .f32)
    (r : Fin 10000) (p : Fin 400) (q : Fin 128)
    (hap : ∀ l : Fin 10000, ap (ix2 p l) = Ap (ix2 r l)) (han : ∀ l : Fin 10000, an (ix2 p l) = An (ix2 r l))
    (hh : hb = h) (hwp : wp = Wp) (hwn : wn = Wn) (hbp : bpb = bp) (hbn : bnb = bn) :
    k2_pay1 (F := Ideal) hb ap an wp bpb wn bnb (ix2 p q) = Cert.Spec.layerK Ap An h Wp Wn bp bn (ix2 r q) := by
  subst hh hwp hwn hbp hbn
  refine (Cert.KernelIdeal.Bodies.k2_pay1_apply hb ap an wp bpb wn bnb p q).trans ?_
  show _ = Ideal.tanh (((∑ k : Fin 128, (∑ l : Fin 10000, Ap (ix2 r l) * hb (ix2 l k)) * wp (ix2 q k)) + bpb (ix2 0 q))
                  + ((∑ k : Fin 128, (∑ l : Fin 10000, An (ix2 r l) * hb (ix2 l k)) * wn (ix2 q k)) + bnb (ix2 0 q)))
  simp only [hap, han]

/-- What point t writes back is its block of the layer of the arrays the region found: entry (p, q) of the block is
    the layer at (400·t + p, q), and that is where the output's block places it. -/
theorem flushed_eq (c : Dev nD) (t : Fin cfg2.N) :
    (dat2 (F := Ideal) V c).flushed 7 t
      = ((cfg2.win 7).blk t).view.read (Elt Ideal)
          (Cert.Spec.layerK (V c main_v0_0) (V c main_v0_1) (V c main_v5) (V c main_v6) (V c main_v7) (V c main_v8) (V c main_v9)) := by
  show (cfg2.win 7).cut (grid2.coords t) ((dat2 (F := Ideal) V c).after 7 t) = _
  rw [after2_7]
  unfold out2_7
  rw [View.canon_unit_zero zero_offsets]
  simp only [View.ld_unit_zero (S := S10000x128) zero_offsets, View.ld_unit_zero (S := S400x10000) zero_offsets,
    View.ld_unit_zero (S := S128x128) zero_offsets, View.ld_unit_zero (S := S1x128) zero_offsets]
  funext j
  obtain ⟨p, q, rfl⟩ : ∃ (p : Fin 400) (q : Fin 128), j = ix2 p q := ⟨j 0, j 1, eq_ix2 j⟩
  have ht : t.val < 25 := point_lt t
  obtain ⟨-, -, -, -, -, -, -, -, -, -, -, -, -, -, e0, e1⟩ := block_indices t
  refine (layer_entry (V c main_v0_0) (V c main_v0_1) (V c main_v5) (V c main_v6) (V c main_v7) (V c main_v8) (V c main_v9)
    (iblk2 V c 2 t) (iblk2 V c 0 t) (iblk2 V c 1 t) (iblk2 V c 3 t) (iblk2 V c 5 t) (iblk2 V c 4 t) (iblk2 V c 6 t)
    ⟨t.val * 400 + p.val, by omega⟩ p q (pos_rows_read V c t p) (neg_rows_read V c t p)
    (features_read V c t) (pos_weight_read V c t) (neg_weight_read V c t) (pos_bias_read V c t) (neg_bias_read V c t)).trans ?_
  show Cert.Spec.layerK (V c main_v0_0) (V c main_v0_1) (V c main_v5) (V c main_v6) (V c main_v7) (V c main_v8) (V c main_v9)
      (ix2 ⟨t.val * 400 + p.val, _⟩ q)
    = Cert.Spec.layerK (V c main_v0_0) (V c main_v0_1) (V c main_v5) (V c main_v6) (V c main_v7) (V c main_v8) (V c main_v9)
      (((cfg2.win 7).blk t).view.emb (ix2 p q))
  refine congrArg _ ?_
  funext a; apply Fin.ext
  match a with
  | ⟨0, _⟩ => show t.val * 400 + p.val = win2_7.index t (0 : Fin 2) * 400 + 1 * p.val; omega
  | ⟨1, _⟩ => show q.val = win2_7.index t (1 : Fin 2) * 128 + 1 * q.val; omega

/-- An index of the output lies in point t's block iff each coordinate lies in the block's range on its axis. -/
theorem mem_block (t : Fin cfg2.N) (i : S10000x128.Idx) :
    i ∈ ((cfg2.win 7).blk t).view.set
      ↔ ∀ a : Fin 2, win2_7.index t a * S400x128.size a ≤ (i a).val ∧ (i a).val < win2_7.index t a * S400x128.size a + S400x128.size a := by
  show i ∈ ((View.whole main_v10).slice (win2_7.rect t)).set ↔ _
  rw [View.set_slice_whole, Rect.mem_set_unit]
  exact Iff.rfl

/-- Every index of the output lies in some point's block: row r lies in the block of point r / 400, because
    400 · (r / 400) ≤ r < 400 · (r / 400) + 400 and r < 10000 = 25 · 400; the 128 columns are one block. -/
theorem covered (i : S10000x128.Idx) :
    ∃ t : Fin cfg2.N, (cfg2.win 7).flush t = true ∧ i ∈ ((cfg2.win 7).blk t).view.set := by
  have hi0 : (i 0).val < 10000 := (i 0).isLt
  have hi1 : (i 1).val < 128 := (i 1).isLt
  have hq : (i 0).val / 400 < 25 := by omega
  obtain ⟨-, -, -, -, -, -, -, -, -, -, -, -, -, -, e0, e1⟩ := block_indices ⟨(i 0).val / 400, hq⟩
  refine ⟨⟨(i 0).val / 400, hq⟩, flush2_7 _, ?_⟩
  rw [mem_block]
  intro a
  match a with
  | ⟨0, _⟩ =>
    show win2_7.index ⟨(i 0).val / 400, hq⟩ (0 : Fin 2) * 400 ≤ (i 0).val
      ∧ (i 0).val < win2_7.index ⟨(i 0).val / 400, hq⟩ (0 : Fin 2) * 400 + 400
    rw [e0]
    show (i 0).val / 400 * 400 ≤ (i 0).val ∧ (i 0).val < (i 0).val / 400 * 400 + 400
    omega
  | ⟨1, _⟩ =>
    show win2_7.index ⟨(i 0).val / 400, hq⟩ (1 : Fin 2) * 128 ≤ (i 1).val
      ∧ (i 1).val < win2_7.index ⟨(i 0).val / 400, hq⟩ (1 : Fin 2) * 128 + 128
    rw [e1]
    omega

/-- The output array after the region: every block is its block of the layer and the blocks fill the array, so the
    array is the layer of the arrays the region found. -/
theorem final2_7 (c : Dev nD) :
    (dat2 (F := Ideal) V c).arrAt 7 cfg2.N
      = Cert.Spec.layerK (V c main_v0_0) (V c main_v0_1) (V c main_v5) (V c main_v6) (V c main_v7) (V c main_v8) (V c main_v9) :=
  (dat2 (F := Ideal) V c).arrAt_eq_of_cover 7
    (Cert.Spec.layerK (V c main_v0_0) (V c main_v0_1) (V c main_v5) (V c main_v6) (V c main_v7) (V c main_v8) (V c main_v9))
    (fun t _ => flushed_eq V c t) covered

end Cert.KernelIdeal.Reg2

end
-- ==== Proof.Reg3.lean ====
/-
  The second propagation layer as a whole array.

  The layer runs over 25 grid points. Point t is handed rows 400·t … 400·t+399 of the two adjacency matrices and the
  whole of the first layer's features, the two weight matrices and the two bias rows, and writes rows 400·t … 400·t+399
  of the output. Entry (p, q) of what point t writes is the layer's value at row 400·t+p, column q: the block of an
  adjacency matrix at (p, l) is the matrix at (400·t+p, l), and every other operand is read where it lies. Since
  25 · 400 = 10000 and the output has a single block column, row r of the output belongs to point r / 400, so the 25
  blocks fill the array and the array ends as the layer of the arrays the region found.
-/
import proofs.«151457_g26603027432195_retrytranche2_1891_15_alg».proof.Proof.Gen.KernelIdeal.Frame
import proofs.«151457_g26603027432195_retrytranche2_1891_15_alg».proof.Proof.Spec
import proofs.«151457_g26603027432195_retrytranche2_1891_15_alg».proof.Proof.Bodies
import Idealize.ShloMosaic.Lib.Pipeline.Value
import Idealize.ShloMosaic.Lib.ValueIdx
set_option maxRecDepth 16384
noncomputable section
namespace Cert.KernelIdeal.Reg3
open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The offset pair (0, 0) is the constant zero offset. -/
theorem zero_offsets : (![0, 0] : Fin 2 → Nat) = fun _ => 0 := funext fun a => by fin_cases a <;> rfl

/-- The block indices at every grid point: the adjacency rows and the output sit at block (t, 0); the features, the
    weights and the biases are single blocks at (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- There are 25 grid points. -/
theorem point_lt (t : Fin cfg3.N) : t.val < 25 := t.isLt

/-- Entry (p, l) of point t's block of A_pos is A_pos at (400·t + p, l): the block's offset is its index times its size. -/
theorem pos_rows_read (c : Dev nD) (t : Fin cfg3.N) (p : Fin 400) (l : Fin 10000) :
    iblk3 V c 0 t (ix2 p l) = V c main_v0_0 (ix2 ⟨t.val * 400 + p.val, by have := point_lt t; omega⟩ l) := by
  obtain ⟨e0, e1, -⟩ := block_indices t
  show V c main_v0_0 (((cfg3.win 0).blk t).view.emb (ix2 p l)) = V c main_v0_0 (ix2 ⟨t.val * 400 + p.val, _⟩ l)
  refine congrArg _ ?_
  funext a; apply Fin.ext
  match a with
  | ⟨0, _⟩ => show win3_0.index t (0 : Fin 2) * 400 + 1 * p.val = t.val * 400 + p.val; omega
  | ⟨1, _⟩ => show win3_0.index t (1 : Fin 2) * 10000 + 1 * l.val = l.val; omega

/-- Entry (p, l) of point t's block of A_neg is A_neg at (400·t + p, l). -/
theorem neg_rows_read (c : Dev nD) (t : Fin cfg3.N) (p : Fin 400) (l : Fin 10000) :
    iblk3 V c 1 t (ix2 p l) = V c main_v0_1 (ix2 ⟨t.val * 400 + p.val, by have := point_lt t; omega⟩ l) := by
  obtain ⟨-, -, e0, e1, -⟩ := block_indices t
  show V c main_v0_1 (((cfg3.win 1).blk t).view.emb (ix2 p l)) = V c main_v0_1 (ix2 ⟨t.val * 400 + p.val, _⟩ l)
  refine congrArg _ ?_
  funext a; apply Fin.ext
  match a with
  | ⟨0, _⟩ => show win3_1.index t (0 : Fin 2) * 400 + 1 * p.val = t.val * 400 + p.val; omega
  | ⟨1, _⟩ => show win3_1.index t (1 : Fin 2) * 10000 + 1 * l.val = l.val; omega

/-- The features' single block is the whole feature matrix. -/
theorem features_read (c : Dev nD) (t : Fin cfg3.N) : iblk3 V c 2 t = V c main_v11 := by
  obtain ⟨-, -, -, -, e0, e1, -⟩ := block_indices t
  funext y
  show V c main_v11 (((cfg3.win 2).blk t).view.emb y) = V c main_v11 y
  refine congrArg _ ?_
  funext a; apply Fin.ext
  match a with
  | ⟨0, _⟩ => show win3_2.index t (0 : Fin 2) * 10000 + 1 * (y 0).val = (y 0).val; omega
  | ⟨1, _⟩ => show win3_2.index t (1 : Fin 2) * 128 + 1 * (y 1).val = (y 1).val; omega

/-- The positive weights' single block is the whole matrix. -/
theorem pos_weight_read (c : Dev nD) (t : Fin cfg3.N) : iblk3 V c 3 t = V c main_v12 := by
  obtain ⟨-, -, -, -, -, -, e0, e1, -⟩ := block_indices t
  funext y
  show V c main_v12 (((cfg3.win 3).blk t).view.emb y) = V c main_v12 y
  refine congrArg _ ?_
  funext a; apply Fin.ext
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- The negative weights' single block is the whole matrix. -/
theorem neg_weight_read (c : Dev nD) (t : Fin cfg3.N) : iblk3 V c 4 t = V c main_v13 := by
  obtain ⟨-, -, -, -, -, -, -, -, e0, e1, -⟩ := block_indices t
  funext y
  show V c main_v13 (((cfg3.win 4).blk t).view.emb y) = V c main_v13 y
  refine congrArg _ ?_
  funext a; apply Fin.ext
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The positive bias row's single block is the whole row. -/
theorem pos_bias_read (c : Dev nD) (t : Fin cfg3.N) : iblk3 V c 5 t = V c main_v14 := by
  obtain ⟨-, -, -, -, -, -, -, -, -, -, e0, e1, -⟩ := block_indices t
  funext y
  show V c main_v14 (((cfg3.win 5).blk t).view.emb y) = V c main_v14 y
  refine congrArg _ ?_
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- The negative bias row's single block is the whole row. -/
theorem neg_bias_read (c : Dev nD) (t : Fin cfg3.N) : iblk3 V c 6 t = V c main_v15 := by
  obtain ⟨-, -, -, -, -, -, -, -, -, -, -, -, e0, e1, -⟩ := block_indices t
  funext y
  show V c main_v15 (((cfg3.win 6).blk t).view.emb y) = V c main_v15 y
  refine congrArg _ ?_
  funext a; apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega

/-- One entry of a point's result. If row p of the two adjacency blocks is row r of the two adjacency matrices and the
    other operands are the arrays themselves, the body's value at (p, q) is the layer's value at (r, q): both are
    tanh of ((Σ_k (Σ_l A_pos(r,l) · h(l,k)) · Wp(q,k)) + bp(q)) + ((Σ_k (Σ_l A_neg(r,l) · h(l,k)) · Wn(q,k)) + bn(q)),
    the same sums in the same order. -/
theorem layer_entry (Ap An : Cert.Spec.Mat 10000 10000) (h : Cert.Spec.Mat 10000 128) (Wp Wn : Cert.Spec.Mat 128 128)
    (bp bn : Cert.Spec.Mat 1 128)
    (hb : Vec Ideal S10000x128 .bf16) (ap an : Vec Ideal S400x10000 .bf16) (wp : Vec Ideal S128x128 .bf16)
    (bpb : Vec Ideal S1x128 .f32) (wn : Vec Ideal S128x128 .bf16) (bnb : Vec Ideal S1x128 .f32)
    (r : Fin 10000) (p : Fin 400) (q : Fin 128)
    (hap : ∀ l : Fin 10000, ap (ix2 p l) = Ap (ix2 r l)) (han : ∀ l : Fin 10000, an (ix2 p l) = An (ix2 r l))
    (hh : hb = h) (hwp : wp = Wp) (hwn : wn = Wn) (hbp : bpb = bp) (hbn : bnb = bn) :
    k3_pay1 (F := Ideal) hb ap an wp bpb wn bnb (ix2 p q) = Cert.Spec.layerK Ap An h Wp Wn bp bn (ix2 r q) := by
  subst hh hwp hwn hbp hbn
  refine (Cert.KernelIdeal.Bodies.k3_pay1_apply hb ap an wp bpb wn bnb p q).trans ?_
  show _ = Ideal.tanh (((∑ k : Fin 128, (∑ l : Fin 10000, Ap (ix2 r l) * hb (ix2 l k)) * wp (ix2 q k)) + bpb (ix2 0 q))
                  + ((∑ k : Fin 128, (∑ l : Fin 10000, An (ix2 r l) * hb (ix2 l k)) * wn (ix2 q k)) + bnb (ix2 0 q)))
  simp only [hap, han]

/-- What point t writes back is its block of the layer of the arrays the region found: entry (p, q) of the block is
    the layer at (400·t + p, q), and that is where the output's block places it. -/
theorem flushed_eq (c : Dev nD) (t : Fin cfg3.N) :
    (dat3 (F := Ideal) V c).flushed 7 t
      = ((cfg3.win 7).blk t).view.read (Elt Ideal)
          (Cert.Spec.layerK (V c main_v0_0) (V c main_v0_1) (V c main_v11) (V c main_v12) (V c main_v13) (V c main_v14) (V c main_v15)) := by
  show (cfg3.win 7).cut (grid3.coords t) ((dat3 (F := Ideal) V c).after 7 t) = _
  rw [after3_7]
  unfold out3_7
  rw [View.canon_unit_zero zero_offsets]
  simp only [View.ld_unit_zero (S := S10000x128) zero_offsets, View.ld_unit_zero (S := S400x10000) zero_offsets,
    View.ld_unit_zero (S := S128x128) zero_offsets, View.ld_unit_zero (S := S1x128) zero_offsets]
  funext j
  obtain ⟨p, q, rfl⟩ : ∃ (p : Fin 400) (q : Fin 128), j = ix2 p q := ⟨j 0, j 1, eq_ix2 j⟩
  have ht : t.val < 25 := point_lt t
  obtain ⟨-, -, -, -, -, -, -, -, -, -, -, -, -, -, e0, e1⟩ := block_indices t
  refine (layer_entry (V c main_v0_0) (V c main_v0_1) (V c main_v11) (V c main_v12) (V c main_v13) (V c main_v14) (V c main_v15)
    (iblk3 V c 2 t) (iblk3 V c 0 t) (iblk3 V c 1 t) (iblk3 V c 3 t) (iblk3 V c 5 t) (iblk3 V c 4 t) (iblk3 V c 6 t)
    ⟨t.val * 400 + p.val, by omega⟩ p q (pos_rows_read V c t p) (neg_rows_read V c t p)
    (features_read V c t) (pos_weight_read V c t) (neg_weight_read V c t) (pos_bias_read V c t) (neg_bias_read V c t)).trans ?_
  show Cert.Spec.layerK (V c main_v0_0) (V c main_v0_1) (V c main_v11) (V c main_v12) (V c main_v13) (V c main_v14) (V c main_v15)
      (ix2 ⟨t.val * 400 + p.val, _⟩ q)
    = Cert.Spec.layerK (V c main_v0_0) (V c main_v0_1) (V c main_v11) (V c main_v12) (V c main_v13) (V c main_v14) (V c main_v15)
      (((cfg3.win 7).blk t).view.emb (ix2 p q))
  refine congrArg _ ?_
  funext a; apply Fin.ext
  match a with
  | ⟨0, _⟩ => show t.val * 400 + p.val = win3_7.index t (0 : Fin 2) * 400 + 1 * p.val; omega
  | ⟨1, _⟩ => show q.val = win3_7.index t (1 : Fin 2) * 128 + 1 * q.val; omega

/-- An index of the output lies in point t's block iff each coordinate lies in the block's range on its axis. -/
theorem mem_block (t : Fin cfg3.N) (i : S10000x128.Idx) :
    i ∈ ((cfg3.win 7).blk t).view.set
      ↔ ∀ a : Fin 2, win3_7.index t a * S400x128.size a ≤ (i a).val ∧ (i a).val < win3_7.index t a * S400x128.size a + S400x128.size a := by
  show i ∈ ((View.whole main_v16).slice (win3_7.rect t)).set ↔ _
  rw [View.set_slice_whole, Rect.mem_set_unit]
  exact Iff.rfl

/-- Every index of the output lies in some point's block: row r lies in the block of point r / 400, because
    400 · (r / 400) ≤ r < 400 · (r / 400) + 400 and r < 10000 = 25 · 400; the 128 columns are one block. -/
theorem covered (i : S10000x128.Idx) :
    ∃ t : Fin cfg3.N, (cfg3.win 7).flush t = true ∧ i ∈ ((cfg3.win 7).blk t).view.set := by
  have hi0 : (i 0).val < 10000 := (i 0).isLt
  have hi1 : (i 1).val < 128 := (i 1).isLt
  have hq : (i 0).val / 400 < 25 := by omega
  obtain ⟨-, -, -, -, -, -, -, -, -, -, -, -, -, -, e0, e1⟩ := block_indices ⟨(i 0).val / 400, hq⟩
  refine ⟨⟨(i 0).val / 400, hq⟩, flush3_7 _, ?_⟩
  rw [mem_block]
  intro a
  match a with
  | ⟨0, _⟩ =>
    show win3_7.index ⟨(i 0).val / 400, hq⟩ (0 : Fin 2) * 400 ≤ (i 0).val
      ∧ (i 0).val < win3_7.index ⟨(i 0).val / 400, hq⟩ (0 : Fin 2) * 400 + 400
    rw [e0]
    show (i 0).val / 400 * 400 ≤ (i 0).val ∧ (i 0).val < (i 0).val / 400 * 400 + 400
    omega
  | ⟨1, _⟩ =>
    show win3_7.index ⟨(i 0).val / 400, hq⟩ (1 : Fin 2) * 128 ≤ (i 1).val
      ∧ (i 1).val < win3_7.index ⟨(i 0).val / 400, hq⟩ (1 : Fin 2) * 128 + 128
    rw [e1]
    omega

/-- The output array after the region: every block is its block of the layer and the blocks fill the array, so the
    array is the layer of the arrays the region found. -/
theorem final3_7 (c : Dev nD) :
    (dat3 (F := Ideal) V c).arrAt 7 cfg3.N
      = Cert.Spec.layerK (V c main_v0_0) (V c main_v0_1) (V c main_v11) (V c main_v12) (V c main_v13) (V c main_v14) (V c main_v15) :=
  (dat3 (F := Ideal) V c).arrAt_eq_of_cover 7
    (Cert.Spec.layerK (V c main_v0_0) (V c main_v0_1) (V c main_v11) (V c main_v12) (V c main_v13) (V c main_v14) (V c main_v15))
    (fun t _ => flushed_eq V c t) covered

end Cert.KernelIdeal.Reg3

end
-- ==== Proof.RefNet.lean ====
/-
  The reference program computes the network of the specification.

  The program is a chain of thirty-four stages: transposes, contractions, bias broadcasts, additions and
  hyperbolic tangents. Read at an entry (p, q): a contraction with a transposed weight is row p of the left
  operand against row q of the weight; an aggregation is row p of the adjacency against column q of the
  features; a broadcast bias is its entry q; additions and the hyperbolic tangent act entry by entry. So each
  stage is one of the specification's formulas applied to the stages before it, every sum matched term by term
  with nothing regrouped, and the whole is the embedding followed by the two layers.
-/
import proofs.«151457_g26603027432195_retrytranche2_1891_15_alg».proof.Proof.Gen.ReferenceIdeal.Read
import proofs.«151457_g26603027432195_retrytranche2_1891_15_alg».proof.Proof.Spec
import Idealize.ShloMosaic.Lib.ValueIdx
import Idealize.ShloMosaic.PureOps.Ideal.Laws
noncomputable section
namespace Cert.ReferenceIdeal.RefNet
open Idealize.ShloMosaic Idealize.ShloMosaic.ValueIdx
open Cert.ReferenceIdeal Cert.ReferenceIdeal.Gen Cert.ReferenceIdeal.Read

/-! ## The specification read at an entry

Each definition of the specification, at the index with coordinates `(p, q)`, is the formula its
docstring gives; a coordinate of `ix2 p q` computes, so each reading holds by unfolding. -/

section SpecAt
open Cert.Spec
variable (p : Fin 10000) (q : Fin 128)

/-- Entry (p, q) of `x · Wᵀ` is the sum over the 128 shared columns. -/
theorem mulT_at (x : Mat 10000 128) (W : Mat 128 128) :
    mulT x W p q = ∑ k : Fin 128, x (ix2 p k) * W (ix2 q k) := rfl

/-- Entry (p, q) of `A · h` is the sum over the 10000 nodes. -/
theorem aggM_at (A : Mat 10000 10000) (h : Mat 10000 128) :
    aggM A h (ix2 p q) = ∑ k : Fin 10000, A (ix2 p k) * h (ix2 k q) := rfl

/-- The single row of a bias, at column `q`, is the bias's entry `q`. -/
theorem row1_at (b : Vec1 128) : row1 b (ix2 0 q) = b (ix1 q) := rfl

/-- The embedding at (p, q). -/
theorem embedK_at (x : Mat 10000 128) (W : Mat 128 128) (b : Mat 1 128) :
    embedK x W b (ix2 p q) = Ideal.tanh (mulT x W p q + b (ix2 0 q)) := rfl

/-- A layer at (p, q). -/
theorem layerK_at (Ap An : Mat 10000 10000) (h : Mat 10000 128) (Wp Wn : Mat 128 128) (bp bn : Mat 1 128) :
    layerK Ap An h Wp Wn bp bn (ix2 p q)
      = Ideal.tanh ((mulT (aggM Ap h) Wp p q + bp (ix2 0 q)) + (mulT (aggM An h) Wn p q + bn (ix2 0 q))) := rfl

end SpecAt

/-! ## Where each stage reads its operands

Three shapes of reading occur, each once in the embedding and then twice per layer (positive and negative branch).

* A product with a transposed weight. The left operand is read at (p, k). The right operand is the transpose
  of `W`, read at (k, q); the transpose swaps the two coordinates, so `W` itself is read at (q, k).
* An aggregation `A · h`: the adjacency is read at (p, k) and the features at (k, q).
* A bias, first made a 1 x 128 row and then repeated down the 10000 rows: at (p, q) it is the bias's entry `q`.

Two indices are equal when they agree on each axis, and on a literal axis both sides compute. -/

section Reads
variable (p : Fin 10000) (q : Fin 128)

-- the embedding
theorem lidx_v1 (k : Fin 128) : lidx_main_v1 (ix2 p q) k = ix2 p k :=
  funext fun a => match a with | ⟨0, _⟩ => rfl | ⟨1, _⟩ => rfl
theorem ridx_v1 (k : Fin 128) : idx_main_v0 (ridx_main_v1 (ix2 p q) k) = ix2 q k :=
  funext fun a => match a with | ⟨0, _⟩ => rfl | ⟨1, _⟩ => rfl
theorem bidx_v3 : idx_main_v2 (idx_main_v3 (ix2 p q)) = ix1 q :=
  funext fun a => match a with | ⟨0, _⟩ => rfl

-- first layer, the two aggregations
theorem lidx_v6 (k : Fin 10000) : lidx_main_v6 (ix2 p q) k = ix2 p k :=
  funext fun a => match a with | ⟨0, _⟩ => rfl | ⟨1, _⟩ => rfl
theorem ridx_v6 (k : Fin 10000) : ridx_main_v6 (ix2 p q) k = ix2 k q :=
  funext fun a => match a with | ⟨0, _⟩ => rfl | ⟨1, _⟩ => rfl
theorem lidx_v7 (k : Fin 10000) : lidx_main_v7 (ix2 p q) k = ix2 p k :=
  funext fun a => match a with | ⟨0, _⟩ => rfl | ⟨1, _⟩ => rfl
theorem ridx_v7 (k : Fin 10000) : ridx_main_v7 (ix2 p q) k = ix2 k q :=
  funext fun a => match a with | ⟨0, _⟩ => rfl | ⟨1, _⟩ => rfl

-- first layer, positive branch
theorem lidx_v9 (k : Fin 128) : lidx_main_v9 (ix2 p q) k = ix2 p k :=
  funext fun a => match a with | ⟨0, _⟩ => rfl | ⟨1, _⟩ => rfl
theorem ridx_v9 (k : Fin 128) : idx_main_v8 (ridx_main_v9 (ix2 p q) k) = ix2 q k :=
  funext fun a => match a with | ⟨0, _⟩ => rfl | ⟨1, _⟩ => rfl
theorem bidx_v11 : idx_main_v10 (idx_main_v11 (ix2 p q)) = ix1 q :=
  funext fun a => match a with | ⟨0, _⟩ => rfl

-- first layer, negative branch
theorem lidx_v14 (k : Fin 128) : lidx_main_v14 (ix2 p q) k = ix2 p k :=
  funext fun a => match a with | ⟨0, _⟩ => rfl | ⟨1, _⟩ => rfl
theorem ridx_v14 (k : Fin 128) : idx_main_v13 (ridx_main_v14 (ix2 p q) k) = ix2 q k :=
  funext fun a => match a with | ⟨0, _⟩ => rfl | ⟨1, _⟩ => rfl
theorem bidx_v16 : idx_main_v15 (idx_main_v16 (ix2 p q)) = ix1 q :=
  funext fun a => match a with | ⟨0, _⟩ => rfl

-- second layer, the two aggregations
theorem lidx_v20 (k : Fin 10000) : lidx_main_v20 (ix2 p q) k = ix2 p k :=
  funext fun a => match a with | ⟨0, _⟩ => rfl | ⟨1, _⟩ => rfl
theorem ridx_v20 (k : Fin 10000) : ridx_main_v20 (ix2 p q) k = ix2 k q :=
  funext fun a => match a with | ⟨0, _⟩ => rfl | ⟨1, _⟩ => rfl
theorem lidx_v21 (k : Fin 10000) : lidx_main_v21 (ix2 p q) k = ix2 p k :=
  funext fun a => match a with | ⟨0, _⟩ => rfl | ⟨1, _⟩ => rfl
theorem ridx_v21 (k : Fin 10000) : ridx_main_v21 (ix2 p q) k = ix2 k q :=
  funext fun a => match a with | ⟨0, _⟩ => rfl | ⟨1, _⟩ => rfl

-- second layer, positive branch
theorem lidx_v23 (k : Fin 128) : lidx_main_v23 (ix2 p q) k = ix2 p k :=
  funext fun a => match a with | ⟨0, _⟩ => rfl | ⟨1, _⟩ => rfl
theorem ridx_v23 (k : Fin 128) : idx_main_v22 (ridx_main_v23 (ix2 p q) k) = ix2 q k :=
  funext fun a => match a with | ⟨0, _⟩ => rfl | ⟨1, _⟩ => rfl
theorem bidx_v25 : idx_main_v24 (idx_main_v25 (ix2 p q)) = ix1 q :=
  funext fun a => match a with | ⟨0, _⟩ => rfl

-- second layer, negative branch
theorem lidx_v28 (k : Fin 128) : lidx_main_v28 (ix2 p q) k = ix2 p k :=
  funext fun a => match a with | ⟨0, _⟩ => rfl | ⟨1, _⟩ => rfl
theorem ridx_v28 (k : Fin 128) : idx_main_v27 (ridx_main_v28 (ix2 p q) k) = ix2 q k :=
  funext fun a => match a with | ⟨0, _⟩ => rfl | ⟨1, _⟩ => rfl
theorem bidx_v30 : idx_main_v29 (idx_main_v30 (ix2 p q)) = ix1 q :=
  funext fun a => match a with | ⟨0, _⟩ => rfl

end Reads

/-! ## The stages -/

section Stages
variable
    (x0 : (⟨S10000x128, .f32⟩ : BufTy).Contents (Elt Ideal)) (x1 x2 : (⟨S10000x10000, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal))
    (p : Fin 10000) (q : Fin 128)

/-! ### The embedding: stages 0 to 5 -/

/-- Stage 1 at (p, q) is row `p` of `x` against row `q` of `W_in`. -/
theorem val_v1_at : val_main_v1 (F := Ideal) x0 x3 (ix2 p q) = Cert.Spec.mulT x0 x3 p q := by
  rw [val_main_v1_apply, mulT_at]
  exact Finset.sum_congr rfl fun k _ => by rw [val_main_v0_apply, lidx_v1, ridx_v1]

/-- Stage 3 at (p, q) is entry `q` of `b_in`, written through its 1 x 128 row. -/
theorem val_v3_at : val_main_v3 (F := Ideal) x4 (ix2 p q) = Cert.Spec.row1 x4 (ix2 0 q) := by
  rw [val_main_v3_apply, val_main_v2_apply, bidx_v3, row1_at]

/-- Stage 5 is the embedding h₀. -/
theorem val_v5_eq : val_main_v5 (F := Ideal) x0 x3 x4 = Cert.Spec.embedK x0 x3 (Cert.Spec.row1 x4) := by
  funext i
  obtain ⟨p, q, rfl⟩ : ∃ (p : Fin 10000) (q : Fin 128), i = ix2 p q := ⟨i 0, i 1, eq_ix2 i⟩
  rw [val_main_v5_apply, val_main_v4_apply, val_v1_at, val_v3_at, embedK_at,
    Ideal.hostUnary_tanh_def, Ideal.addf_def]

/-! ### The first layer: stages 6 to 19, over the embedding h₀ -/

/-- Stage 6 is `A_pos · h₀`. -/
theorem val_v6_eq :
    val_main_v6 (F := Ideal) x0 x1 x3 x4 = Cert.Spec.aggM x1 (val_main_v5 (F := Ideal) x0 x3 x4) := by
  funext i
  obtain ⟨p, q, rfl⟩ : ∃ (p : Fin 10000) (q : Fin 128), i = ix2 p q := ⟨i 0, i 1, eq_ix2 i⟩
  rw [val_main_v6_apply, aggM_at]
  exact Finset.sum_congr rfl fun k _ => by rw [lidx_v6, ridx_v6]

/-- Stage 7 is `A_neg · h₀`. -/
theorem val_v7_eq :
    val_main_v7 (F := Ideal) x0 x2 x3 x4 = Cert.Spec.aggM x2 (val_main_v5 (F := Ideal) x0 x3 x4) := by
  funext i
  obtain ⟨p, q, rfl⟩ : ∃ (p : Fin 10000) (q : Fin 128), i = ix2 p q := ⟨i 0, i 1, eq_ix2 i⟩
  rw [val_main_v7_apply, aggM_at]
  exact Finset.sum_congr rfl fun k _ => by rw [lidx_v7, ridx_v7]

/-- Stage 9 at (p, q) is row `p` of `A_pos · h₀` against row `q` of the positive weight. -/
theorem val_v9_at :
    val_main_v9 (F := Ideal) x0 x1 x3 x4 x5 (ix2 p q)
      = Cert.Spec.mulT (Cert.Spec.aggM x1 (val_main_v5 (F := Ideal) x0 x3 x4)) x5 p q := by
  rw [val_main_v9_apply, val_v6_eq, mulT_at]
  exact Finset.sum_congr rfl fun k _ => by rw [val_main_v8_apply, lidx_v9, ridx_v9]

/-- Stage 11 at (p, q) is entry `q` of the positive bias, written through its 1 x 128 row. -/
theorem val_v11_at : val_main_v11 (F := Ideal) x6 (ix2 p q) = Cert.Spec.row1 x6 (ix2 0 q) := by
  rw [val_main_v11_apply, val_main_v10_apply, bidx_v11, row1_at]

/-- Stage 14 at (p, q) is row `p` of `A_neg · h₀` against row `q` of the negative weight. -/
theorem val_v14_at :
    val_main_v14 (F := Ideal) x0 x2 x3 x4 x7 (ix2 p q)
      = Cert.Spec.mulT (Cert.Spec.aggM x2 (val_main_v5 (F := Ideal) x0 x3 x4)) x7 p q := by
  rw [val_main_v14_apply, val_v7_eq, mulT_at]
  exact Finset.sum_congr rfl fun k _ => by rw [val_main_v13_apply, lidx_v14, ridx_v14]

/-- Stage 16 at (p, q) is entry `q` of the negative bias, written through its 1 x 128 row. -/
theorem val_v16_at : val_main_v16 (F := Ideal) x8 (ix2 p q) = Cert.Spec.row1 x8 (ix2 0 q) := by
  rw [val_main_v16_apply, val_main_v15_apply, bidx_v16, row1_at]

/-- Stage 19 is the first layer applied to the embedding: the two branches are added in the layer's own
    grouping, (product + bias) + (product + bias), and the hyperbolic tangent is taken entry by entry. -/
theorem val_v19_eq :
    val_main_v19 (F := Ideal) x0 x1 x2 x3 x4 x5 x6 x7 x8
      = Cert.Spec.layerK x1 x2 (val_main_v5 (F := Ideal) x0 x3 x4) x5 x7 (Cert.Spec.row1 x6) (Cert.Spec.row1 x8) := by
  funext i
  obtain ⟨p, q, rfl⟩ : ∃ (p : Fin 10000) (q : Fin 128), i = ix2 p q := ⟨i 0, i 1, eq_ix2 i⟩
  rw [val_main_v19_apply, val_main_v18_apply, val_main_v12_apply, val_main_v17_apply,
    val_v9_at, val_v11_at, val_v14_at, val_v16_at, layerK_at]
  simp only [Ideal.hostUnary_tanh_def, Ideal.addf_def]

/-! ### The second layer: stages 20 to 33, over the first layer's result h₁ -/

/-- Stage 20 is `A_pos · h₁`. -/
theorem val_v20_eq :
    val_main_v20 (F := Ideal) x0 x1 x2 x3 x4 x5 x6 x7 x8
      = Cert.Spec.aggM x1 (val_main_v19 (F := Ideal) x0 x1 x2 x3 x4 x5 x6 x7 x8) := by
  funext i
  obtain ⟨p, q, rfl⟩ : ∃ (p : Fin 10000) (q : Fin 128), i = ix2 p q := ⟨i 0, i 1, eq_ix2 i⟩
  rw [val_main_v20_apply, aggM_at]
  exact Finset.sum_congr rfl fun k _ => by rw [lidx_v20, ridx_v20]

/-- Stage 21 is `A_neg · h₁`. -/
theorem val_v21_eq :
    val_main_v21 (F := Ideal) x0 x1 x2 x3 x4 x5 x6 x7 x8
      = Cert.Spec.aggM x2 (val_main_v19 (F := Ideal) x0 x1 x2 x3 x4 x5 x6 x7 x8) := by
  funext i
  obtain ⟨p, q, rfl⟩ : ∃ (p : Fin 10000) (q : Fin 128), i = ix2 p q := ⟨i 0, i 1, eq_ix2 i⟩
  rw [val_main_v21_apply, aggM_at]
  exact Finset.sum_congr rfl fun k _ => by rw [lidx_v21, ridx_v21]

/-- Stage 23 at (p, q) is row `p` of `A_pos · h₁` against row `q` of the positive weight. -/
theorem val_v23_at :
    val_main_v23 (F := Ideal) x0 x1 x2 x3 x4 x5 x6 x7 x8 x9 (ix2 p q)
      = Cert.Spec.mulT (Cert.Spec.aggM x1 (val_main_v19 (F := Ideal) x0 x1 x2 x3 x4 x5 x6 x7 x8)) x9 p q := by
  rw [val_main_v23_apply, val_v20_eq, mulT_at]
  exact Finset.sum_congr rfl fun k _ => by rw [val_main_v22_apply, lidx_v23, ridx_v23]

/-- Stage 25 at (p, q) is entry `q` of the positive bias, written through its 1 x 128 row. -/
theorem val_v25_at : val_main_v25 (F := Ideal) x10 (ix2 p q) = Cert.Spec.row1 x10 (ix2 0 q) := by
  rw [val_main_v25_apply, val_main_v24_apply, bidx_v25, row1_at]

/-- Stage 28 at (p, q) is row `p` of `A_neg · h₁` against row `q` of the negative weight. -/
theorem val_v28_at :
    val_main_v28 (F := Ideal) x0 x1 x2 x3 x4 x5 x6 x7 x8 x11 (ix2 p q)
      = Cert.Spec.mulT (Cert.Spec.aggM x2 (val_main_v19 (F := Ideal) x0 x1 x2 x3 x4 x5 x6 x7 x8)) x11 p q := by
  rw [val_main_v28_apply, val_v21_eq, mulT_at]
  exact Finset.sum_congr rfl fun k _ => by rw [val_main_v27_apply, lidx_v28, ridx_v28]

/-- Stage 30 at (p, q) is entry `q` of the negative bias, written through its 1 x 128 row. -/
theorem val_v30_at : val_main_v30 (F := Ideal) x12 (ix2 p q) = Cert.Spec.row1 x12 (ix2 0 q) := by
  rw [val_main_v30_apply, val_main_v29_apply, bidx_v30, row1_at]

/-- Stage 33 is the second layer applied to the first layer's result. -/
theorem val_v33_eq :
    val_main_v33 (F := Ideal) x0 x1 x2 x3 x4 x5 x6 x7 x8 x9 x10 x11 x12
      = Cert.Spec.layerK x1 x2 (val_main_v19 (F := Ideal) x0 x1 x2 x3 x4 x5 x6 x7 x8) x9 x11
          (Cert.Spec.row1 x10) (Cert.Spec.row1 x12) := by
  funext i
  obtain ⟨p, q, rfl⟩ : ∃ (p : Fin 10000) (q : Fin 128), i = ix2 p q := ⟨i 0, i 1, eq_ix2 i⟩
  rw [val_main_v33_apply, val_main_v32_apply, val_main_v26_apply, val_main_v31_apply,
    val_v23_at, val_v25_at, val_v28_at, val_v30_at, layerK_at]
  simp only [Ideal.hostUnary_tanh_def, Ideal.addf_def]

end Stages

/-! ## The whole program -/

/-- The reference program's result is the network of its arguments: the embedding, then the two layers,
    each stage's result feeding the next exactly as the network composes them. -/
theorem val_main_v33_eq_net
    (x0 : (⟨S10000x128, .f32⟩ : BufTy).Contents (Elt Ideal)) (x1 x2 : (⟨S10000x10000, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) :
    Cert.ReferenceIdeal.Read.val_main_v33 (F := Ideal) x0 x1 x2 x3 x4 x5 x6 x7 x8 x9 x10 x11 x12
      = Cert.Spec.net x0 x1 x2 x3 x4 x5 x6 x7 x8 x9 x10 x11 x12 := by
  unfold Cert.Spec.net
  rw [val_v33_eq, val_v19_eq, val_v5_eq]

end Cert.ReferenceIdeal.RefNet
end
-- ==== Proof.lean ====
/-
  The kernel and its reference compute one function of their thirteen arguments, over the extended reals.

  Both are a two-layer signed graph network on 10000 nodes with 128 features:
      h₀ = tanh (x · W_inᵀ + b_in),    h' = tanh ((A_pos · h) · Wpᵀ + bp + (A_neg · h) · Wnᵀ + bn),
  the layer applied twice. The kernel runs it as four launches (a format change of the two adjacency matrices, the
  embedding, and the two layers, each layer over 25 blocks of 400 rows with the full 10000-term contraction inside a
  block), with format changes and bias reshapes between them on the host; the reference as one chain of whole-array
  operations. Over the extended reals a format change is the identity, a matrix product into a zero accumulator and
  the host's dot product are the same sum over the contraction index in the same order, and the hyperbolic tangent is
  one function on both sides. So the two results agree term by term: no sum is regrouped, no factor is moved across
  a sum, and the finiteness of the inputs is never used.

  The pieces: `Spec` states the network; `Bodies` reads each launch's stored block at one entry; `Reg0` … `Reg3` turn
  a launch's per-block write-backs into its whole output array; `Chain` walks the run's buffer contents from the last
  launch's output back to the arguments; `KRun` is the run itself with the result buffer named; `RefNet` reads the
  reference's chain of operations as the same network. The idealization rewrote nothing, so its ledger is empty.
-/
import proofs.«151457_g26603027432195_retrytranche2_1891_15_alg».proof.Defs
import proofs.«151457_g26603027432195_retrytranche2_1891_15_alg».proof.Proof.Gen.Kernel
import proofs.«151457_g26603027432195_retrytranche2_1891_15_alg».proof.Proof.Gen.Kernel.Frame
import proofs.«151457_g26603027432195_retrytranche2_1891_15_alg».proof.Proof.Gen.KernelIdeal
import proofs.«151457_g26603027432195_retrytranche2_1891_15_alg».proof.Proof.Gen.KernelIdeal.Frame
import proofs.«151457_g26603027432195_retrytranche2_1891_15_alg».proof.Proof.Gen.ReferenceIdeal
import proofs.«151457_g26603027432195_retrytranche2_1891_15_alg».proof.Proof.Gen.Pre_finite_inputs
import proofs.«151457_g26603027432195_retrytranche2_1891_15_alg».proof.Proof.Gen.ReferenceIdeal.Run
import proofs.«151457_g26603027432195_retrytranche2_1891_15_alg».proof.Proof.Gen.ReferenceIdeal.Read
import proofs.«151457_g26603027432195_retrytranche2_1891_15_alg».proof.Proof.Spec
import proofs.«151457_g26603027432195_retrytranche2_1891_15_alg».proof.Proof.KRun
import proofs.«151457_g26603027432195_retrytranche2_1891_15_alg».proof.Proof.Chain
import proofs.«151457_g26603027432195_retrytranche2_1891_15_alg».proof.Proof.Reg0
import proofs.«151457_g26603027432195_retrytranche2_1891_15_alg».proof.Proof.Reg1
import proofs.«151457_g26603027432195_retrytranche2_1891_15_alg».proof.Proof.Reg2
import proofs.«151457_g26603027432195_retrytranche2_1891_15_alg».proof.Proof.Reg3
import proofs.«151457_g26603027432195_retrytranche2_1891_15_alg».proof.Proof.RefNet
import Idealize.ShloMosaic.Adequacy
import Idealize.ShloMosaic.Init

noncomputable section

namespace Cert.Proof

open Idealize.ShloMosaic Idealize.SL.Sem

/-- Each launch's output array as a function of the contents it is entered with. -/
theorem regionValues : Cert.KernelIdeal.Chain.RegionValues :=
  ⟨Cert.KernelIdeal.Reg0.final0_2, Cert.KernelIdeal.Reg0.final0_3, Cert.KernelIdeal.Reg1.final1_3,
   Cert.KernelIdeal.Reg2.final2_7, Cert.KernelIdeal.Reg3.final3_7⟩

theorem frame_kernel [Cert.Kernel.Facts] [Cert.Pre_finite_inputs.Facts] : Cert.frame_Kernel :=
  fun m ρ _ => Cert.Kernel.Gen.frame m ρ
theorem frame_kernelIdeal [Cert.KernelIdeal.Facts] [Cert.Pre_finite_inputs.Facts] : Cert.frame_KernelIdeal :=
  fun m ρ _ => Cert.KernelIdeal.Gen.frame m ρ
/-- The reference has no launch: its frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the network of the arguments in their result buffer; the memories agree on the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result_eq m ρ c regionValues), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v33_eq, Cert.ReferenceIdeal.RefNet.val_main_v33_eq_net,
      e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
   frame_kernel, frame_kernelIdeal, frame_referenceIdeal, trivial, algebraic⟩

end Cert.Proof

end
